-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S192x256 : Shape := ⟨2, ![192, 256]⟩
abbrev S256 : Shape := ⟨1, ![256]⟩
abbrev S256x128 : Shape := ⟨2, ![256, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_v53 : IVec S1x800000 32 := (extractStridedSlice S1x800000 ![1, 0] · slices_S2x800000_S1x800000_1_0) main_arg1
  let main_v54 : IVec S800000 32 := shapeCast S800000 main_v53 shapeCasts_S1x800000_S800000
  let main_c_19 : IVec S_ 32 := constantI S_ 32 50000#32
  let main_v55 : IVec S800000 32 := broadcastInDim S800000 ![] bcast_S_S800000 main_c_19
  let main_v56 : IVec S800000 1 := cmpi .slt main_v54 main_v55
  let main_v57 : IVec S800000 1 := andi main_v52 main_v56
  let main_c_20 : IVec S_ 1 := constantI S_ 1 1#1
  let main_v58 : IVec S_ 1 := (fun x v => Host.reduce IntOp.andi x v reducesTo_S800000_S_d0 h_S_) main_v57 main_c_20
  let main_v59 : IVec S_ 1 := andi main_v48 main_v58
  main_v59

def fn_part2 {F : FTy → Type} [FloatOps F] (main_arg1 : IVec S2x800000 32) (main_arg8 : FVec F S256 .f32) (main_arg9 : FVec F S256x128 .f32) (main_arg10 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : IVec S1x800000 32 := (extractStridedSlice S1x800000 ![1, 0] · slices_S2x800000_S1x800000_1_0) main_arg1
  let main_v50 : IVec S800000 32 := shapeCast S800000 main_v49 shapeCasts_S1x800000_S800000
  let main_c_18 : IVec S_ 32 := constantI S_ 32 0#32
  fn_part3 (F := F) main_arg1 main_v48 main_v50 main_c_18

def fn_part1 {F : FTy → Type} [FloatOps F] (main_arg1 : IVec S2x800000 32) (main_arg5 : FVec F S256x128 .f32) (main_arg6 : FVec F S128 .f32) (main_arg7 : FVec F S192x256 .f32) (main_arg8 : FVec F S256 .f32) (main_arg9 : FVec F S256x128 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S192x256 .f32 := Host.absf main_arg7
  let main_cst_10 : FVec F S_ .f32 := constant S_ .f32 0x7F800000#32
  let main_v30 : FVec F S192x256 .f32 := broadcastInDim S192x256 ![] bcast_S_S192x256 main_cst_10
  let main_v31 : IVec S192x256 1 := cmpf .olt main_v29 main_v30
  let main_c_11 : IVec S_ 1 := constantI S_ 1 1#1
  let main_v32 : IVec S_ 1 := (fun x v => Host.reduce IntOp.andi x v reducesTo_S192x256_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x800000 32) (main_arg2 : FVec F S800000x64 .f32) (main_arg3 : FVec F S192x256 .f32) (main_arg4 : FVec F S256 .f32) (main_arg5 : FVec F S256x128 .f32) (main_arg6 : FVec F S128 .f32) (main_arg7 : FVec F S192x256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x256 .f32 := Host.absf main_arg3
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S192x256 : Shape := ⟨2, ![192, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S800000x193 : Shape := ⟨2, ![800000, 193]⟩
abbrev S1x256 : Shape := ⟨2, ![1, 256]⟩
abbrev S1x128 : Shape := ⟨2, ![1, 128]⟩
abbrev S3200x193 : Shape := ⟨2, ![3200, 193]⟩
abbrev S3200x128 : Shape := ⟨2, ![3200, 128]⟩
abbrev S3200x192 : Shape := ⟨2, ![3200, 192]⟩
abbrev S3200x1 : Shape := ⟨2, ![3200, 1]⟩
abbrev S3200x256 : Shape := ⟨2, ![3200, 256]⟩
abbrev S50000x256 : Shape := ⟨2, ![50000, 256]⟩

abbrev nBuf : Space → Nat
  | .hbm => 48
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S192x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S192x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x192, .f32⟩
  | .hbm, ⟨25, _⟩ => ⟨S800000, .i32⟩
  | .hbm, ⟨26, _⟩ => ⟨S800000, .f32⟩
  | .hbm, ⟨27, _⟩ => ⟨S800000x1, .f32⟩
  | .hbm, ⟨28, _⟩ => ⟨S800000x193, .f32⟩
  | .hbm, ⟨29, _⟩ => ⟨S192x256, .bf16⟩
  | .hbm, ⟨30, _⟩ => ⟨S256x128, .bf16⟩
  | .hbm, ⟨31, _⟩ => ⟨S192x256, .bf16⟩
  | .hbm, ⟨32, _⟩ => ⟨S256x128, .bf16⟩
  | .hbm, ⟨33, _⟩ => ⟨S1x256, .f32⟩
  | .hbm, ⟨34, _⟩ => ⟨S1x128, .f32⟩
  | .hbm, ⟨35, _⟩ => ⟨S1x256, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x256, .f32⟩
  | .local _ .vmem, ⟨0, _⟩ => ⟨S3200x193, .f32⟩
  | .local _ .vmem, ⟨1, _⟩ => ⟨S3200x193, .f32⟩
  | .local _ .vmem, ⟨2, _⟩ => ⟨S192x256, .bf16⟩
  | .local _ .vmem, ⟨3, _⟩ => ⟨S1x256, .f32⟩
  | .local _ .vmem, ⟨4, _⟩ => ⟨S256x128, .bf16⟩
  | .local _ .vmem, ⟨5, _⟩ => ⟨S1x128, .f32⟩
  | .local _ .vmem, ⟨6, _⟩ => ⟨S192x256, .bf16⟩
  | .local _ .vmem, ⟨7, _⟩ => ⟨S1x256, .f32⟩
  | .local _ .vmem, ⟨8, _⟩ => ⟨S256x128, .bf16⟩
  | .local _ .vmem, ⟨9, _⟩ => ⟨S1x128, .f32⟩
  | .local _ .vmem, ⟨10, _⟩ => ⟨S3200x128, .f32⟩
  | .local _ .vmem, ⟨11, _⟩ => ⟨S3200x128, .f32⟩
  | .local _ .vmem, ⟨12, _⟩ => ⟨S3200x128, .f32⟩
  | .local _ .vmem, ⟨13, _⟩ => ⟨S3200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x193 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3200x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3200x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  concatenates_S800000x192_S800000x1_S800000x193_d1 : Shape.Concatenates [S800000x192, S800000x1] S800000x193 1
  bitsLt_bf16_f32 : FTy.bits .bf16 < FTy.bits .f32
  shapeCasts_S256_S1x256 : S256.ShapeCasts S1x256
  shapeCasts_S128_S1x128 : S128.ShapeCasts S1x128
  inb_S3200x193_S3200x193_0_0 : ∀ a, (![0, 0] : Fin 2 → Nat) a + S3200x193.size a ≤ S3200x193.size a
  h_S3200x193 : 0 < S3200x193.numel
  shapeCasts_S3200x193_S3200x193 : S3200x193.ShapeCasts S3200x193
  slices_S3200x193_o0_0_S3200x192 : S3200x193.Slices ![0, 0] S3200x192
  slices_S3200x193_o0_192_S3200x1 : S3200x193.Slices ![0, 192] S3200x1
  natLt_1_32 : 1 < 32
  inb_S192x256_S192x256_0_0 : ∀ a, (![0, 0] : Fin 2 → Nat) a + S192x256.size a ≤ S192x256.size a
  h_S192x256 : 0 < S192x256.numel
  shapeCasts_S192x256_S192x256 : S192x256.ShapeCasts S192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  broadcasts_S3200x1_S3200x128 : S3200x1.Broadcasts S3200x128
  inb_S3200x128_S3200x128_0_0 : ∀ a, (![0, 0] : Fin 2 → Nat) a + S3200x128.size a ≤ S3200x128.size a
  h_S3200x128 : 0 < S3200x128.numel
  bcast_S_S50000x128 : S_.BroadcastsInDim S50000x128 (![] : Fin 0 → Fin S50000x128.rank)
  concatenates_S50000x128_S50000x128_S50000x256_d1 : Shape.Concatenates [S50000x128, S50000x128] S50000x256 1
  gather_S50000x128_S800000x1_S800000x128_1_0_n_n_0_1_1128_wf : GatherDims.WF S50000x128 S800000x1 S800000x128 [1] [0] [] [0] [] 1 ![1, 128]
  dot_S3200x192_S192x256_S3200x256_1_0_0_1_n_n_wf : DotDims.WF S3200x192 S192x256 S3200x256 [1] [0] [0] [1] [] []
  dot_S3200x256_S256x128_S3200x128_1_0_0_1_n_n_wf : DotDims.WF S3200x256 S256x128 S3200x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x193.size a ≤ S800000x193.size a
  hwx0_0 : ∀ i : grid0.Coords, EltTy.bits .f32 = 32 ∨ (Rect.block (s := S800000x193) S3200x193.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x256.size a ≤ S192x256.size a
  hwx0_1 : ∀ i : grid0.Coords, EltTy.bits .bf16 = 32 ∨ (Rect.block (s := S192x256) S192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x256.size a ≤ S192x256.size a
  hwx0_5 : ∀ i : grid0.Coords, EltTy.bits .bf16 = 32 ∨ (Rect.block (s := S192x256) S192x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3200x128.size a ≤ S800000x128.size a
  hwx0_9 : ∀ i : grid0.Coords, EltTy.bits .f32 = 32 ∨ (Rect.block (s := S800000x128) S3200x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x128.size a ≤ S800000x128.size a
  hwx0_10 : ∀ i : grid0.Coords, EltTy.bits .f32 = 32 ∨ (Rect.block (s := S800000x128) S3200x128.size (cc0_transform_10 i) (hinb0_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x192_S192x256_S3200x256_1_0_0_1_n_n : DotDims S3200x192 S192x256 S3200x256 where
  lhsContracting := [1]
  rhsContracting := [0]
  lhsNonContracting := [0]
  rhsNonContracting := [1]
  lhsBatch := []
  rhsBatch := []
  wf := dot_S3200x192_S192x256_S3200x256_1_0_0_1_n_n_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v15) S3200x193.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S192x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24_0) S3200x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v24_1) S3200x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S192x256 : Shape := ⟨2, ![192, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S800000x256 : Shape := ⟨2, ![800000, 256]⟩
abbrev S1x256 : Shape := ⟨2, ![1, 256]⟩
abbrev S1x128 : Shape := ⟨2, ![1, 128]⟩
abbrev S50000x256 : Shape := ⟨2, ![50000, 256]⟩

abbrev nBuf : Space → Nat
  | .hbm => 66
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S192x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S192x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x192, .f32⟩
  | .hbm, ⟨25, _⟩ => ⟨S800000, .i1⟩
  | .hbm, ⟨26, _⟩ => ⟨S800000, .f32⟩
  | .hbm, ⟨27, _⟩ => ⟨S800000x1, .f32⟩
  | .hbm, ⟨28, _⟩ => ⟨S800000x256, .f32⟩
  | .hbm, ⟨29, _⟩ => ⟨S1x256, .f32⟩
  | .hbm, ⟨30, _⟩ => ⟨S800000x256, .f32⟩
  | .hbm, ⟨31, _⟩ => ⟨S800000x256, .f32⟩
  | .hbm, ⟨32, _⟩ => ⟨S_, .f32⟩
  | .hbm, ⟨33, _⟩ => ⟨S800000x256, .f32⟩
  | .hbm, ⟨34, _⟩ => ⟨S800000x256, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S800000, .i1⟩
  | .hbm, ⟨46, _⟩ => ⟨S800000, .f32⟩
  | .hbm, ⟨47, _⟩ => ⟨S800000x1, .f32⟩
  | .hbm, ⟨48, _⟩ => ⟨S800000x256, .f32⟩
  | .hbm, ⟨49, _⟩ => ⟨S1x256, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S800000x256, .f32⟩
  | .hbm, ⟨54, _⟩ => ⟨S800000x256, .f32⟩
  | .hbm, ⟨55, _⟩ => ⟨S800000x128, .f32⟩
  | .hbm, ⟨56, _⟩ => ⟨S1x128, .f32⟩
  | .hbm, ⟨57, _⟩ => ⟨S800000x128, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_cst : Ref sig .tc := ⟨.hbm, 52, rfl⟩
abbrev main_call1_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_1 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  gather_S50000x128_S800000x1_S800000x128_1_0_n_n_0_1_1128_wf : GatherDims.WF S50000x128 S800000x1 S800000x128 [1] [0] [] [0] [] 1 ![1, 128]
  dot_S800000x192_S192x256_S800000x256_1_0_0_1_n_n_wf : DotDims.WF S800000x192 S192x256 S800000x256 [1] [0] [0] [1] [] []
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x256_S800000x256_1_0_0_1_n_n : DotDims S800000x192 S192x256 S800000x256 where
  lhsContracting := [1]
  rhsContracting := [0]
  lhsNonContracting := [0]
  rhsNonContracting := [1]
  lhsBatch := []
  rhsBatch := []
  wf := dot_S800000x192_S192x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibRowScatter.lean ====
/-
  A general lemma: StableHLO's accumulating scatter of ROWS into a table at a COLUMN of scatter indices, read at an
  index, over the extended reals.

  What jax's segment_sum(updates, idx, num_segments = N) lowers to for updates [R, C] and an integer vector idx of
  length R: a scatter with an add body into a table [N, C] whose scatter indices are the vector laid out as an [R, 1]
  column (the index vector on the last axis, of length one), the table's axis 0 inserted and scatter-indexed, its axis 1
  the updates' one window axis. Update element (e, c) lands on table element (row, c), where row is idx[e, 0] read as
  a signed integer, and is dropped when that row is outside [0, N). Over the extended reals the result at (i, c) is
  the table's element there plus the sum of the updates (e, c) over the rows e whose index is i.
-/
import Idealize.ShloMosaic.Lib.ValueIdx
import Idealize.ShloMosaic.PureOps.Ideal
import Idealize.ShloMosaic.PureOps.Contract

noncomputable section

namespace Cert.RowScatter

open Idealize.ShloMosaic Idealize.ShloMosaic.ValueIdx

/-- Those dimension numbers, for a table [N, C], scatter indices [R, 1] and updates [R, C]; the conditions wf are
    decided on a program's literal shapes. -/
abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N C R w : Nat}
  (wf : ScatterDims.WF ⟨2, ![N, C]⟩ ⟨2, ![R, 1]⟩ ⟨2, ![R, C]⟩ [1] [0] [0] 1)
  (idx : IVec ⟨2, ![R, 1]⟩ w) (e : Fin R) (c : Fin C)

/-- The table's row axis is inserted, so it is not among the kept axes … -/
theorem zero_not_mem_sKept : ¬ (0 : Fin 2) ∈ (rowDims N C R wf).sKept := by
  simp [ScatterDims.sKept, Shape.kept]

/-- … and its column axis is the one kept axis. -/
theorem one_mem_sKept : (1 : Fin 2) ∈ (rowDims N C R wf).sKept := by
  simp [ScatterDims.sKept, Shape.kept]

/-- On the ROW axis the window of update (e, c) starts at the index column's word for row e, read signed. -/
theorem start_row : (rowDims N C R wf).start (ix2 e c) idx (0 : Fin 2) = (idx (ix2 e (0 : Fin 1))).toInt := by
  unfold ScatterDims.start
  rw [dif_pos (show (0 : Fin 2) ∈ (rowDims N C R wf).scatterDimsToOperandDims from List.mem_singleton.mpr rfl)]
  have hsi : (rowDims N C R wf).siIdx (ix2 e c) ⟨List.idxOf (0 : Fin 2) (rowDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the COLUMN axis, which is not scatter-indexed, the window starts at 0. -/
theorem start_col : (rowDims N C R wf).start (ix2 e c) idx (1 : Fin 2) = 0 := by
  unfold ScatterDims.start
  rw [dif_neg (fun h => absurd (congrArg Fin.val (List.mem_singleton.mp h)) Nat.one_ne_zero)]

/-- The window coordinate on the inserted ROW axis is 0. -/
theorem window_row : (rowDims N C R wf).window (ix2 e c) (0 : Fin 2) = 0 := by
  unfold ScatterDims.window
  rw [dif_neg (zero_not_mem_sKept wf)]

/-- The window coordinate on the COLUMN axis is the update's column c. -/
theorem window_col : (rowDims N C R wf).window (ix2 e c) (1 : Fin 2) = c.val := by
  unfold ScatterDims.window
  rw [dif_pos (one_mem_sKept wf)]
  rfl

end

section
variable {N C R w : Nat}
  (wf : ScatterDims.WF ⟨2, ![N, C]⟩ ⟨2, ![R, 1]⟩ ⟨2, ![R, C]⟩ [1] [0] [0] 1)
  (idx : IVec ⟨2, ![R, 1]⟩ w)

/-- WHERE AN UPDATE LANDS: update (e, c') lands on table element (i, c) exactly when row e's scatter index, read
    signed, is i and the columns agree. Start plus window coordinate is (that index, c'); it is inside the table on the
    column axis always, and on the row axis exactly when the index is in [0, N), which i < N gives. -/
theorem resultIdx?_eq_some_iff (e : Fin R) (c' : Fin C) (i : Fin N) (c : Fin C) :
    (rowDims N C R wf).resultIdx? (ix2 e c') idx = some (ix2 i c)
      ↔ (idx (ix2 e (0 : Fin 1))).toInt = (i.val : Int) ∧ c' = c := by
  unfold ScatterDims.resultIdx?
  constructor
  · intro hEq
    split at hEq
    · rename_i h
      have hf := Option.some.inj hEq
      have h0 : ((rowDims N C R wf).start (ix2 e c') idx (0 : Fin 2)
          + ((rowDims N C R wf).window (ix2 e c') (0 : Fin 2) : Nat)).toNat = i.val :=
        congrArg (fun f : (⟨2, ![N, C]⟩ : Shape).Idx => (f (0 : Fin 2)).val) hf
      have h1 : ((rowDims N C R wf).start (ix2 e c') idx (1 : Fin 2)
          + ((rowDims N C R wf).window (ix2 e c') (1 : Fin 2) : Nat)).toNat = c.val :=
        congrArg (fun f : (⟨2, ![N, C]⟩ : Shape).Idx => (f (1 : Fin 2)).val) hf
      have hb : 0 ≤ (rowDims N C R wf).start (ix2 e c') idx (0 : Fin 2)
          + ((rowDims N C R wf).window (ix2 e c') (0 : Fin 2) : Nat) := (h (0 : Fin 2)).1
      rw [start_row, window_row] at h0 hb
      rw [start_col, window_col] at h1
      exact ⟨by omega, Fin.ext (by omega)⟩
    · exact absurd hEq (by simp)
  · rintro ⟨h0, rfl⟩
    have hall : ∀ a : Fin 2, 0 ≤ (rowDims N C R wf).start (ix2 e c') idx a + ((rowDims N C R wf).window (ix2 e c') a : Nat)
        ∧ (rowDims N C R wf).start (ix2 e c') idx a + ((rowDims N C R wf).window (ix2 e c') a : Nat)
            < ((⟨2, ![N, C]⟩ : Shape).size a : Nat) := by
      intro a
      match a with
      | ⟨0, _⟩ =>
        show 0 ≤ (rowDims N C R wf).start (ix2 e c') idx (0 : Fin 2) + ((rowDims N C R wf).window (ix2 e c') (0 : Fin 2) : Nat)
          ∧ (rowDims N C R wf).start (ix2 e c') idx (0 : Fin 2) + ((rowDims N C R wf).window (ix2 e c') (0 : Fin 2) : Nat) < (N : Int)
        rw [start_row, window_row, h0]
        have := i.isLt
        omega
      | ⟨1, _⟩ =>
        show 0 ≤ (rowDims N C R wf).start (ix2 e c') idx (1 : Fin 2) + ((rowDims N C R wf).window (ix2 e c') (1 : Fin 2) : Nat)
          ∧ (rowDims N C R wf).start (ix2 e c') idx (1 : Fin 2) + ((rowDims N C R wf).window (ix2 e c') (1 : Fin 2) : Nat) < (C : Int)
        rw [start_col, window_col]
        have := c'.isLt
        omega
    rw [dif_pos hall]
    refine congrArg some (funext fun a => Fin.ext ?_)
    match a with
    | ⟨0, _⟩ =>
      show ((rowDims N C R wf).start (ix2 e c') idx (0 : Fin 2) + ((rowDims N C R wf).window (ix2 e c') (0 : Fin 2) : Nat)).toNat = i.val
      rw [start_row, window_row, h0]
      omega
    | ⟨1, _⟩ =>
      show ((rowDims N C R wf).start (ix2 e c') idx (1 : Fin 2) + ((rowDims N C R wf).window (ix2 e c') (1 : Fin 2) : Nat)).toNat = c'.val
      rw [start_col, window_col]
      omega

end

/-- THE ACCUMULATING SCATTER READ AT (i, c), over the extended reals: the table there plus the updates (e, c) of the
    rows e whose scatter index, read signed, is i. -/
theorem scatterAdd_rows_apply {N C R w : Nat} {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (i : Fin N) (c : Fin C) :
    Host.scatterAdd (rowDims N C R wf) x idx upd (ix2 i c)
      = x (ix2 i c) + ∑ e ∈ Finset.univ.filter (fun e : Fin R => (idx (ix2 e (0 : Fin 1))).toInt = (i.val : Int)),
          upd (ix2 e c) := by
  -- The scatter at (i, c) is the table there plus the sum of the updates that land there; the updates that land at
  -- (i, c) are the (e, c) with row e's index equal to i, and e ↦ (e, c) is a bijection onto them with inverse j ↦ j 0.
  unfold Host.scatterAdd
  rw [Ideal.hostScatterAdd_def]
  unfold Ideal.hostScatterAdd
  refine congrArg (x (ix2 i c) + ·) ?_
  symm
  refine Finset.sum_nbij' (fun e : Fin R => (ix2 e c : (⟨2, ![R, C]⟩ : Shape).Idx))
    (fun j : (⟨2, ![R, C]⟩ : Shape).Idx => (j (0 : Fin 2) : Fin R)) ?_ ?_ ?_ ?_ ?_
  · intro e he
    rw [Finset.mem_filter] at he ⊢
    exact ⟨Finset.mem_univ _, (resultIdx?_eq_some_iff wf idx e c i c).mpr ⟨he.2, rfl⟩⟩
  · intro j hj
    obtain ⟨a, b, rfl⟩ : ∃ a b, j = ix2 a b := ⟨j 0, j 1, eq_ix2 j⟩
    rw [Finset.mem_filter] at hj ⊢
    exact ⟨Finset.mem_univ _, ((resultIdx?_eq_some_iff wf idx a b i c).mp hj.2).1⟩
  · intro e _
    rfl
  · intro j hj
    obtain ⟨a, b, rfl⟩ : ∃ a b, j = ix2 a b := ⟨j 0, j 1, eq_ix2 j⟩
    rw [Finset.mem_filter] at hj
    rw [((resultIdx?_eq_some_iff wf idx a b i c).mp hj.2).2]
  · intro e _
    rfl

end Cert.RowScatter

end
-- ==== Proof.Spec.lean ====
/-
  What both programs compute for one edge, over the extended reals.

  An edge e carries a feature row of 192 numbers (the 128 features of its source node followed by its own 64
  attributes) and two node ids, row e and col e. Each of the two flows applies a two-layer perceptron to the
  feature row — a 192 → 256 linear map plus bias, a rectifier, a 256 → 128 linear map plus bias — and keeps the
  result only when the ids are ordered its way (row < col for the outgoing flow, row > col for the incoming
  one): the result is multiplied by a mask that is 1 or 0. The masked rows are then summed per node id row e.

  The reference takes the mask from the comparison of the two ids. The kernel takes it from the sign of the
  difference row e − col e, computed in 32-bit words and then read as a number. The two agree as long as the
  subtraction does not wrap, which is the case when both ids are node numbers.
-/
import Idealize.ShloMosaic.Lib.ValueIdx
import Idealize.ShloMosaic.PureOps.Ideal
import proofs.«174627_j2267742732915_1_alg».proof.Proof.LibRowScatter

noncomputable section

namespace Cert.EdgeFlow

open Idealize.ShloMosaic Idealize.ShloMosaic.ValueIdx

/-- The two-layer perceptron of one feature row x, at output coordinate q:
    Σₖ max (Σⱼ x j · W1 j k + b1 k) 0 · W2 k q + b2 q. -/
def mlpRow (x : Fin 192 → EReal) (W1 : Fin 192 → Fin 256 → EReal) (b1 : Fin 256 → EReal)
    (W2 : Fin 256 → Fin 128 → EReal) (b2 : Fin 128 → EReal) (q : Fin 128) : EReal :=
  (∑ k : Fin 256, max ((∑ j : Fin 192, x j * W1 j k) + b1 k) 0 * W2 k q) + b2 q

/-- The difference of two ids as the kernel forms it: subtracted as 32-bit words, the result read signed. -/
def diffOf (r c : BitVec 32) : EReal := (((r - c).toInt : ℝ) : EReal)

/-- The kernel's mask: the truth value of a comparison of the difference against zero, widened to a word and
    read as a number. -/
def diffMask (p : CmpFPredicate) (d : EReal) : EReal :=
  ((((Ideal.cmp p d 0).setWidth 32).toInt : ℝ) : EReal)

/-- The reference's mask: the truth value of a signed comparison of the two ids, read as a number. -/
def idMask (p : CmpIPredicate) (r c : BitVec 32) : EReal := (((IntOp.cmpi p r c).toNat : ℝ) : EReal)

/-- Two accumulating row scatters into the same table at the same indices agree as soon as their updates agree on
    the rows whose index is a row of the table: the other rows are dropped by both. -/
theorem scatterAdd_congr_rows {N C R w : Nat} {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (U U' : FVec Ideal ⟨2, ![R, C]⟩ φ)
    (h : ∀ (e : Fin R) (c : Fin C), 0 ≤ (idx (ix2 e (0 : Fin 1))).toInt → (idx (ix2 e (0 : Fin 1))).toInt < (N : Int) →
      U (ix2 e c) = U' (ix2 e c)) :
    Host.scatterAdd (RowScatter.rowDims N C R wf) x idx U = Host.scatterAdd (RowScatter.rowDims N C R wf) x idx U' := by
  funext j
  obtain ⟨i, c, rfl⟩ : ∃ (i : Fin N) (c : Fin C), j = ix2 i c := ⟨j 0, j 1, eq_ix2 j⟩
  rw [RowScatter.scatterAdd_rows_apply, RowScatter.scatterAdd_rows_apply]
  refine congrArg (x (ix2 i c) + ·) (Finset.sum_congr rfl fun e he => ?_)
  have hi : (idx (ix2 e (0 : Fin 1))).toInt = (i.val : Int) := (Finset.mem_filter.mp he).2
  exact h e c (by rw [hi]; exact Int.natCast_nonneg _) (by rw [hi]; exact_mod_cast i.isLt)

end Cert.EdgeFlow

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.KernelTile.lean ====
/-
  One tile of edges in the kernel, read entry by entry over the extended reals.

  The kernel sees 3200 edges at a time as a [3200, 193] tile: columns 0 … 191 of row p are edge p's feature row,
  column 192 is the difference of its two node ids. For each flow it multiplies the feature rows by the first
  weight matrix, adds the first bias row, rectifies, multiplies by the second weight matrix, adds the second
  bias row, and multiplies row p by a mask read off the sign of column 192. Changes of float format are the
  identity on extended reals, a matrix product into a zero accumulator is the plain sum over the contracted
  coordinate, so entry (p, q) of the result is the two-layer perceptron of row p at q times the mask of row p.
-/
import proofs.«174627_j2267742732915_1_alg».proof.Proof.Gen.KernelIdeal.Skeleton
import proofs.«174627_j2267742732915_1_alg».proof.Proof.Spec
import proofs.«174627_j2267742732915_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.EdgeFlow

open Cert.KernelIdeal Cert.KernelIdeal.Gen Idealize.ShloMosaic Idealize.ShloMosaic.ValueIdx

/-- Feature j of an edge sits in column j of the 193 columns. -/
def feat (j : Fin 192) : Fin 193 := ⟨j.val, by have := j.isLt; omega⟩
/-- The id difference sits in the last column. -/
def diffCol : Fin 193 := ⟨192, by decide⟩

/-! ## Layout -/

/-- An [a, 1] column spread along rows of length b reads, at (p, q), the column at p. -/
theorem spreadCol_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A [1, b] row spread down a rows reads, at (p, q), the row at q. -/
theorem spreadRow_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The feature columns of the tile: entry (p, j) of the leading 192 columns is the tile at (p, j). -/
theorem features_apply (x0 : Vec Ideal S3200x193 .f32) (p : Fin 3200) (j : Fin 192) :
    k0_pay5 (F := Ideal) x0 (ix2 p j) = x0 (ix2 p (feat j)) := by
  unfold k0_pay5 k0_pay2
  show extractStridedSlice S3200x192 ![0, 0] (shapeCast S3200x193 x0 shapeCasts_S3200x193_S3200x193)
      slices_S3200x193_o0_0_S3200x192 (ix2 p j) = _
  rw [shapeCast_self]
  exact extractStridedSlice_apply ![0, 0] x0 slices_S3200x193_o0_0_S3200x192 (ix2 p j) (ix2 p (feat j)) (fun a => by
    match a with
    | ⟨0, _⟩ => show p.val = 0 + p.val; omega
    | ⟨1, _⟩ => show j.val = 0 + j.val; omega)

/-- The difference column of the tile: entry (p, 0) of the last column is the tile at (p, 192). -/
theorem diff_apply (x0 : Vec Ideal S3200x193 .f32) (p : Fin 3200) :
    k0_pay3 (F := Ideal) x0 (ix2 p (0 : Fin 1)) = x0 (ix2 p diffCol) := by
  unfold k0_pay3 k0_pay2
  rw [shapeCast_self]
  exact extractStridedSlice_apply ![0, 192] x0 slices_S3200x193_o0_192_S3200x1 (ix2 p (0 : Fin 1)) (ix2 p diffCol) (fun a => by
    match a with
    | ⟨0, _⟩ => show p.val = 0 + p.val; omega
    | ⟨1, _⟩ => show 192 = 192 + 0; rfl)

/-! ## One dense layer -/

/-- A product into the zero accumulator plus a bias row, rectified: at (p, k), max (Σⱼ X p j · W j k + b k) 0. -/
theorem hidden_apply {M K N : ℕ} {φ₁ φ₂ : FTy} (prec : Option ContractPrecision)
    (X : FVec Ideal ⟨2, ![M, K]⟩ φ₁) (W : FVec Ideal ⟨2, ![K, N]⟩ φ₂) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (k : Fin N) :
    maximumf
        (addf (matmul (F := Ideal) (DotDims.plain M K N) prec X (shapeCast ⟨2, ![K, N]⟩ W hw)
                (constant (F := Ideal) ⟨2, ![M, N]⟩ .f32 0x00000000#32))
              (broadcastTo ⟨2, ![M, N]⟩ (shapeCast ⟨2, ![1, N]⟩ b hb) hbb))
        (broadcast ⟨2, ![M, N]⟩ (Scalar.ofBits (F := Ideal) .f32 0x00000000#32)) (ix2 p k)
      = max ((∑ j : Fin K, X (ix2 p j) * W (ix2 j k)) + b (ix2 (0 : Fin 1) k)) 0 :=
  congrArg₂ max
    (congrArg₂ (· + ·)
      ((PlainProduct.matmul_zero_apply prec X _ p k).trans
        (Finset.sum_congr rfl fun j _ => congrArg (X (ix2 p j) * ·) (congrFun (shapeCast_self W hw) (ix2 j k))))
      ((spreadRow_apply _ hbb p k).trans (congrFun (shapeCast_self b hb) (ix2 (0 : Fin 1) k))))
    Ideal.ofBits_zero_f32

/-- The same without the rectifier: at (p, q), Σₖ H p k · W k q + b q. -/
theorem output_apply {M K N : ℕ} {φ₁ φ₂ : FTy} (prec : Option ContractPrecision)
    (H : FVec Ideal ⟨2, ![M, K]⟩ φ₁) (W : FVec Ideal ⟨2, ![K, N]⟩ φ₂) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    addf (matmul (F := Ideal) (DotDims.plain M K N) prec H (shapeCast ⟨2, ![K, N]⟩ W hw)
              (constant (F := Ideal) ⟨2, ![M, N]⟩ .f32 0x00000000#32))
          (broadcastTo ⟨2, ![M, N]⟩ (shapeCast ⟨2, ![1, N]⟩ b hb) hbb) (ix2 p q)
      = (∑ k : Fin K, H (ix2 p k) * W (ix2 k q)) + b (ix2 (0 : Fin 1) q) :=
  congrArg₂ (· + ·)
    ((PlainProduct.matmul_zero_apply prec H _ p q).trans
      (Finset.sum_congr rfl fun k _ => congrArg (H (ix2 p k) * ·) (congrFun (shapeCast_self W hw) (ix2 k q))))
    ((spreadRow_apply _ hbb p q).trans (congrFun (shapeCast_self b hb) (ix2 (0 : Fin 1) q)))

/-! ## The mask column -/

/-- The mask the kernel forms from a column d of differences by a comparison against zero, spread along rows of
    length b: at (p, q), the mask of d at p. -/
theorem maskCol_apply {a b : ℕ} (pr : CmpFPredicate) (d : FVec Ideal ⟨2, ![a, 1]⟩ .f32)
    (hlt : 1 < 32) (h : (⟨2, ![a, 1]⟩ : Shape).Broadcasts ⟨2, ![a, b]⟩) (p : Fin a) (q : Fin b) :
    broadcastTo ⟨2, ![a, b]⟩
        (sitofp (F := Ideal) .f32 (extui 32 (cmpf pr d (broadcast ⟨2, ![a, 1]⟩ (Scalar.ofBits (F := Ideal) .f32 0x00000000#32))) hlt))
        h (ix2 p q)
      = diffMask pr (d (ix2 p (0 : Fin 1))) := by
  refine (spreadCol_apply _ h p q).trans ?_
  show ((((Ideal.cmp pr (d (ix2 p (0 : Fin 1))) (Ideal.ofBits .f32 0x00000000#32)).setWidth 32).toInt : ℝ) : EReal) = _
  rw [Ideal.ofBits_zero_f32]
  rfl

end Cert.EdgeFlow

end
-- ==== Proof.KernelPay.lean ====
/-
  What the kernel stores for one tile of 3200 edges, entry by entry: for each flow, entry (p, q) is the two-layer
  perceptron of edge p's feature row at q, times the mask read off the sign of edge p's id difference — negative
  for the outgoing flow, positive for the incoming one.
-/
import proofs.«174627_j2267742732915_1_alg».proof.Proof.KernelTile

noncomputable section

namespace Cert.EdgeFlow

open Cert.KernelIdeal Cert.KernelIdeal.Gen Idealize.ShloMosaic Idealize.ShloMosaic.ValueIdx

/-- The rectified first layer of either flow at (p, k): the feature rows times a [192, 256] weight matrix W plus
    a bias row b, rectified. -/
theorem firstLayer_apply (x0 : Vec Ideal S3200x193 .f32) (W : FVec Ideal S192x256 .bf16) (b : FVec Ideal S1x256 .f32)
    (p : Fin 3200) (k : Fin 256) :
    maximumf
        (addf (matmul (F := Ideal) dot_S3200x192_S192x256_S3200x256_1_0_0_1_n_n none (k0_pay5 (F := Ideal) x0)
                (shapeCast S192x256 W shapeCasts_S192x256_S192x256) (constant (F := Ideal) S3200x256 .f32 0x00000000#32))
              (broadcastTo S3200x256 (shapeCast S1x256 b shapeCasts_S1x256_S1x256) broadcasts_S1x256_S3200x256))
        (broadcast S3200x256 (Scalar.ofBits (F := Ideal) .f32 0x00000000#32)) (ix2 p k)
      = max ((∑ j : Fin 192, x0 (ix2 p (feat j)) * W (ix2 j k)) + b (ix2 (0 : Fin 1) k)) 0 :=
  (hidden_apply none (k0_pay5 (F := Ideal) x0) W b shapeCasts_S192x256_S192x256 shapeCasts_S1x256_S1x256
      broadcasts_S1x256_S3200x256 p k).trans
    (congrArg₂ max (congrArg (· + b (ix2 (0 : Fin 1) k))
      (Finset.sum_congr rfl fun j _ => congrArg (· * W (ix2 j k)) (features_apply x0 p j))) rfl)

/-- The second layer of either flow at (p, q) over a rectified first layer H. -/
theorem secondLayer_apply (H : FVec Ideal S3200x256 .bf16) (W : FVec Ideal S256x128 .bf16) (b : FVec Ideal S1x128 .f32)
    (p : Fin 3200) (q : Fin 128) :
    addf (matmul (F := Ideal) dot_S3200x256_S256x128_S3200x128_1_0_0_1_n_n none H
              (shapeCast S256x128 W shapeCasts_S256x128_S256x128) (constant (F := Ideal) S3200x128 .f32 0x00000000#32))
          (broadcastTo S3200x128 (shapeCast S1x128 b shapeCasts_S1x128_S1x128) broadcasts_S1x128_S3200x128) (ix2 p q)
      = (∑ k : Fin 256, H (ix2 p k) * W (ix2 k q)) + b (ix2 (0 : Fin 1) q) :=
  output_apply none H W b shapeCasts_S256x128_S256x128 shapeCasts_S1x128_S1x128 broadcasts_S1x128_S3200x128 p q

/-- THE OUTGOING FLOW'S TILE at (p, q). -/
theorem outTile_apply (x0 : Vec Ideal S3200x193 .f32) (x1 : Vec Ideal S192x256 .bf16) (x2 : Vec Ideal S1x256 .f32)
    (x3 : Vec Ideal S256x128 .bf16) (x4 : Vec Ideal S1x128 .f32) (p : Fin 3200) (q : Fin 128) :
    k0_pay6 (F := Ideal) x0 x1 x2 x3 x4 (ix2 p q)
      = mlpRow (fun j => x0 (ix2 p (feat j))) (fun j k => x1 (ix2 j k)) (fun k => x2 (ix2 (0 : Fin 1) k))
          (fun k q' => x3 (ix2 k q')) (fun q' => x4 (ix2 (0 : Fin 1) q')) q
        * diffMask .olt (x0 (ix2 p diffCol)) := by
  unfold k0_pay6 mlpRow
  refine congrArg₂ (· * ·) ?_ ?_
  · refine (secondLayer_apply _ x3 x4 p q).trans ?_
    exact congrArg (· + x4 (ix2 (0 : Fin 1) q))
      (Finset.sum_congr rfl fun k _ => congrArg (· * x3 (ix2 k q)) (firstLayer_apply x0 x1 x2 p k))
  · exact (maskCol_apply .olt (k0_pay3 (F := Ideal) x0) natLt_1_32 broadcasts_S3200x1_S3200x128 p q).trans
      (congrArg (diffMask .olt) (diff_apply x0 p))

/-- THE INCOMING FLOW'S TILE at (p, q). -/
theorem inTile_apply (x0 : Vec Ideal S3200x193 .f32) (x5 : Vec Ideal S192x256 .bf16) (x6 : Vec Ideal S1x256 .f32)
    (x7 : Vec Ideal S256x128 .bf16) (x8 : Vec Ideal S1x128 .f32) (p : Fin 3200) (q : Fin 128) :
    k0_pay1 (F := Ideal) (k0_pay4 (F := Ideal) x0) (k0_pay7 (F := Ideal) x0 x5) x6 x7 x8 (ix2 p q)
      = mlpRow (fun j => x0 (ix2 p (feat j))) (fun j k => x5 (ix2 j k)) (fun k => x6 (ix2 (0 : Fin 1) k))
          (fun k q' => x7 (ix2 k q')) (fun q' => x8 (ix2 (0 : Fin 1) q')) q
        * diffMask .ogt (x0 (ix2 p diffCol)) := by
  unfold k0_pay1 k0_pay4 k0_pay7 mlpRow
  refine congrArg₂ (· * ·) ?_ ?_
  · refine (secondLayer_apply _ x7 x8 p q).trans ?_
    exact congrArg (· + x8 (ix2 (0 : Fin 1) q))
      (Finset.sum_congr rfl fun k _ => congrArg (· * x7 (ix2 k q)) (firstLayer_apply x0 x5 x6 p k))
  · exact (maskCol_apply .ogt (k0_pay3 (F := Ideal) x0) natLt_1_32 broadcasts_S3200x1_S3200x128 p q).trans
      (congrArg (diffMask .ogt) (diff_apply x0 p))

end Cert.EdgeFlow

end
-- ==== Proof.KernelBlocks.lean ====
/-
  From tiles to arrays. The pallas_call walks the 800000 edges in 250 tiles of 3200: at point t it reads rows
  3200·t … 3200·t + 3199 of the [800000, 193] edge array and the eight weight and bias arrays whole, and writes rows
  3200·t … of each of the two [800000, 128] result arrays. A tile's entry (p, q) depends on row p of the tile only,
  so each result array after the run is ONE function of the arrays the call reads: entry (e, q) is the two-layer
  perceptron of edge e's feature row at q times the mask of edge e's id difference. The tiles cover every edge.
-/
import proofs.«174627_j2267742732915_1_alg».proof.Proof.Gen.KernelIdeal.Frame
import proofs.«174627_j2267742732915_1_alg».proof.Proof.KernelPay
import Idealize.ShloMosaic.Lib.Pipeline.Value

set_option maxRecDepth 16384

noncomputable section

namespace Cert.EdgeFlow

open Cert.KernelIdeal Cert.KernelIdeal.Gen Idealize.ShloMosaic Idealize.ShloMosaic.ValueIdx Idealize.ShloMosaic.TcCoe
open Idealize.SL.Sem
open Idealize.ShloMosaic.Pipeline (Dat)

/-- One flow's edge-level result as a function of the arrays the call reads: E the [800000, 193] edge array
    (features, then the id difference), W1 b1 W2 b2 the flow's weights and biases, pr the comparison its mask uses. -/
def flowArr (pr : CmpFPredicate) (E : FVec Ideal S800000x193 .f32) (W1 : FVec Ideal S192x256 .bf16) (b1 : FVec Ideal S1x256 .f32)
    (W2 : FVec Ideal S256x128 .bf16) (b2 : FVec Ideal S1x128 .f32) : FVec Ideal S800000x128 .f32 := fun i =>
  mlpRow (fun j => E (ix2 (i 0) (feat j))) (fun j k => W1 (ix2 j k)) (fun k => b1 (ix2 (0 : Fin 1) k))
      (fun k q' => W2 (ix2 k q')) (fun q' => b2 (ix2 (0 : Fin 1) q')) (i 1)
    * diffMask pr (E (ix2 (i 0) diffCol))

/-- A tile whose rows are rows r₀ + p of the edge array, beside the weight arrays whole, stores the flow's array at
    (r₀ + p, q) — the outgoing flow. -/
theorem outTile_of_rows (E : FVec Ideal S800000x193 .f32) (x0 : Vec Ideal S3200x193 .f32) (x1 : Vec Ideal S192x256 .bf16)
    (x2 : Vec Ideal S1x256 .f32) (x3 : Vec Ideal S256x128 .bf16) (x4 : Vec Ideal S1x128 .f32)
    (r : Fin 800000) (p : Fin 3200) (q : Fin 128) (h0 : ∀ j : Fin 193, x0 (ix2 p j) = E (ix2 r j)) :
    k0_pay6 (F := Ideal) x0 x1 x2 x3 x4 (ix2 p q) = flowArr .olt E x1 x2 x3 x4 (ix2 r q) := by
  rw [outTile_apply]
  unfold flowArr
  simp only [h0]

/-- The same for the incoming flow. -/
theorem inTile_of_rows (E : FVec Ideal S800000x193 .f32) (x0 : Vec Ideal S3200x193 .f32) (x5 : Vec Ideal S192x256 .bf16)
    (x6 : Vec Ideal S1x256 .f32) (x7 : Vec Ideal S256x128 .bf16) (x8 : Vec Ideal S1x128 .f32)
    (r : Fin 800000) (p : Fin 3200) (q : Fin 128) (h0 : ∀ j : Fin 193, x0 (ix2 p j) = E (ix2 r j)) :
    k0_pay1 (F := Ideal) (k0_pay4 (F := Ideal) x0) (k0_pay7 (F := Ideal) x0 x5) x6 x7 x8 (ix2 p q)
      = flowArr .ogt E x5 x6 x7 x8 (ix2 r q) := by
  rw [inTile_apply]
  unfold flowArr
  simp only [h0]

theorem hz : (![0, 0] : Fin 2 → Nat) = fun _ => 0 := funext fun a => by fin_cases a <;> rfl

/-- The printed index maps, decided over the 250 points: the edge array's window and the two result windows are at
    block (t, 0), the eight weight and bias windows stay at block (0, 0). -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

variable (m : (ℓ : Loc nD τ sig) → Buf (Elt Ideal) ℓ)

/-- Row p of the tile at point t is row 3200·t + p of the edge array. -/
theorem tileRow (c : Dev nD) (t : Fin cfg0.N) (p : Fin 3200) (j : Fin 193) :
    iblk m c 0 t (ix2 p j) = V m c main_v15 (ix2 (⟨t.val * 3200 + p.val, by have ht : t.val < 250 := t.isLt; have := p.isLt; show _ < 800000; omega⟩ : Fin 800000) j) := by
  obtain ⟨e0, e1, -⟩ := idx_facts t
  show V m c main_v15 (((cfg0.win 0).blk t).view.emb (ix2 p j)) = _
  refine congrArg (V m c main_v15) (funext fun a => Fin.ext ?_)
  match a with
  | ⟨0, _⟩ => show win0_0.index t (0 : Fin 2) * 3200 + 1 * p.val = t.val * 3200 + p.val; rw [e0]; omega
  | ⟨1, _⟩ => show win0_0.index t (1 : Fin 2) * 193 + 1 * j.val = j.val; rw [e1]; omega

/-- A window that stays at block (0, 0) of an array its block is as large as reads the whole array: the weights and
    biases as the region finds them. -/
theorem w1o_whole (c : Dev nD) (t : Fin cfg0.N) : iblk m c 1 t = V m c main_v16 := by
  obtain ⟨-, -, -, -, -, -, e0, e1, -⟩ := idx_facts t
  funext y
  show V m c main_v16 (((cfg0.win 1).blk t).view.emb y) = V m c main_v16 y
  refine congrArg (V m c main_v16) (funext fun a => Fin.ext ?_)
  match a with
  | ⟨0, _⟩ => show win0_1.index t (0 : Fin 2) * 192 + 1 * (y 0).val = (y 0).val; rw [e0]; omega
  | ⟨1, _⟩ => show win0_1.index t (1 : Fin 2) * 256 + 1 * (y 1).val = (y 1).val; rw [e1]; omega
theorem b1o_whole (c : Dev nD) (t : Fin cfg0.N) : iblk m c 2 t = V m c main_v20 := by
  obtain ⟨-, -, -, -, -, -, -, -, e0, e1, -⟩ := idx_facts t
  funext y
  show V m c main_v20 (((cfg0.win 2).blk t).view.emb y) = V m c main_v20 y
  refine congrArg (V m c main_v20) (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega
theorem w2o_whole (c : Dev nD) (t : Fin cfg0.N) : iblk m c 3 t = V m c main_v17 := by
  obtain ⟨-, -, -, -, -, -, -, -, -, -, e0, e1, -⟩ := idx_facts t
  funext y
  show V m c main_v17 (((cfg0.win 3).blk t).view.emb y) = V m c main_v17 y
  refine congrArg (V m c main_v17) (funext fun a => Fin.ext ?_)
  match a with
  | ⟨0, _⟩ => show win0_3.index t (0 : Fin 2) * 256 + 1 * (y 0).val = (y 0).val; rw [e0]; omega
  | ⟨1, _⟩ => show win0_3.index t (1 : Fin 2) * 128 + 1 * (y 1).val = (y 1).val; rw [e1]; omega
theorem b2o_whole (c : Dev nD) (t : Fin cfg0.N) : iblk m c 4 t = V m c main_v21 := by
  obtain ⟨-, -, -, -, -, -, -, -, -, -, -, -, e0, e1, -⟩ := idx_facts t
  funext y
  show V m c main_v21 (((cfg0.win 4).blk t).view.emb y) = V m c main_v21 y
  refine congrArg (V m c main_v21) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega
theorem w1i_whole (c : Dev nD) (t : Fin cfg0.N) : iblk m c 5 t = V m c main_v18 := by
  obtain ⟨-, -, -, -, -, -, -, -, -, -, -, -, -, -, e0, e1, -⟩ := idx_facts t
  funext y
  show V m c main_v18 (((cfg0.win 5).blk t).view.emb y) = V m c main_v18 y
  refine congrArg (V m c main_v18) (funext fun a => Fin.ext ?_)
  match a with
  | ⟨0, _⟩ => show win0_5.index t (0 : Fin 2) * 192 + 1 * (y 0).val = (y 0).val; rw [e0]; omega
  | ⟨1, _⟩ => show win0_5.index t (1 : Fin 2) * 256 + 1 * (y 1).val = (y 1).val; rw [e1]; omega
theorem b1i_whole (c : Dev nD) (t : Fin cfg0.N) : iblk m c 6 t = V m c main_v22 := by
  obtain ⟨-, -, -, -, -, -, -, -, -, -, -, -, -, -, -, -, e0, e1, -⟩ := idx_facts t
  funext y
  show V m c main_v22 (((cfg0.win 6).blk t).view.emb y) = V m c main_v22 y
  refine congrArg (V m c main_v22) (funext fun a => Fin.ext ?_)
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega
theorem w2i_whole (c : Dev nD) (t : Fin cfg0.N) : iblk m c 7 t = V m c main_v19 := by
  obtain ⟨-, -, -, -, -, -, -, -, -, -, -, -, -, -, -, -, -, -, e0, e1, -⟩ := idx_facts t
  funext y
  show V m c main_v19 (((cfg0.win 7).blk t).view.emb y) = V m c main_v19 y
  refine congrArg (V m c main_v19) (funext fun a => Fin.ext ?_)
  match a with
  | ⟨0, _⟩ => show win0_7.index t (0 : Fin 2) * 256 + 1 * (y 0).val = (y 0).val; rw [e0]; omega
  | ⟨1, _⟩ => show win0_7.index t (1 : Fin 2) * 128 + 1 * (y 1).val = (y 1).val; rw [e1]; omega
theorem b2i_whole (c : Dev nD) (t : Fin cfg0.N) : iblk m c 8 t = V m c main_v23 := by
  obtain ⟨-, -, -, -, -, -, -, -, -, -, -, -, -, -, -, -, -, -, -, -, e0, e1⟩ := idx_facts t
  funext y
  show V m c main_v23 (((cfg0.win 8).blk t).view.emb y) = V m c main_v23 y
  refine congrArg (V m c main_v23) (funext fun a => Fin.ext ?_)
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- The outgoing flow's array as the region's arrays give it. -/
abbrev outArr (c : Dev nD) : FVec Ideal S800000x128 .f32 :=
  flowArr .olt (V m c main_v15) (V m c main_v16) (V m c main_v20) (V m c main_v17) (V m c main_v21)
/-- The incoming flow's. -/
abbrev inArr (c : Dev nD) : FVec Ideal S800000x128 .f32 :=
  flowArr .ogt (V m c main_v15) (V m c main_v18) (V m c main_v22) (V m c main_v19) (V m c main_v23)

/-- WHAT POINT t WRITES BACK to the first result array is rows 3200·t … of the outgoing flow's array. -/
theorem flushedOut_eq (c : Dev nD) (t : Fin cfg0.N) :
    (dats m 0 c).flushed 9 t = ((cfg0.win 9).blk t).view.read (Elt Ideal) (outArr m c) := by
  show (cfg0.win 9).cut (grid0.coords t) ((dats m 0 c).after 9 t) = _
  rw [after0_9]
  unfold out0_9
  rw [View.canon_unit_zero hz]
  simp only [View.ld_unit_zero (S := S3200x193) hz, View.ld_unit_zero (S := S192x256) hz, View.ld_unit_zero (S := S1x256) hz,
    View.ld_unit_zero (S := S256x128) hz, View.ld_unit_zero (S := S1x128) hz]
  rw [w1o_whole m c t, b1o_whole m c t, w2o_whole m c t, b2o_whole m c t]
  obtain ⟨-, -, e0, e1, -⟩ := idx_facts t
  funext y
  obtain ⟨p, q, rfl⟩ : ∃ (p : Fin 3200) (q : Fin 128), y = ix2 p q := ⟨y 0, y 1, eq_ix2 y⟩
  have ht : t.val < 250 := t.isLt
  refine (outTile_of_rows (V m c main_v15) (iblk m c 0 t) (V m c main_v16) (V m c main_v20) (V m c main_v17) (V m c main_v21)
    ⟨t.val * 3200 + p.val, by have := p.isLt; omega⟩ p q (fun j => tileRow m c t p j)).trans ?_
  show outArr m c _ = outArr m c (((cfg0.win 9).blk t).view.emb (ix2 p q))
  refine congrArg (outArr m c) (funext fun a => Fin.ext ?_)
  match a with
  | ⟨0, _⟩ => show t.val * 3200 + p.val = win0_9.index t (0 : Fin 2) * 3200 + 1 * p.val; rw [e0]; omega
  | ⟨1, _⟩ => show q.val = win0_9.index t (1 : Fin 2) * 128 + 1 * q.val; rw [e1]; omega

/-- And to the second result array, rows 3200·t … of the incoming flow's array. -/
theorem flushedIn_eq (c : Dev nD) (t : Fin cfg0.N) :
    (dats m 0 c).flushed 10 t = ((cfg0.win 10).blk t).view.read (Elt Ideal) (inArr m c) := by
  show (cfg0.win 10).cut (grid0.coords t) ((dats m 0 c).after 10 t) = _
  rw [after0_10]
  unfold out0_10
  rw [View.canon_unit_zero hz]
  simp only [View.ld_unit_zero (S := S3200x193) hz, View.ld_unit_zero (S := S192x256) hz, View.ld_unit_zero (S := S1x256) hz,
    View.ld_unit_zero (S := S256x128) hz, View.ld_unit_zero (S := S1x128) hz]
  rw [w1i_whole m c t, b1i_whole m c t, w2i_whole m c t, b2i_whole m c t]
  obtain ⟨-, -, -, -, e0, e1, -⟩ := idx_facts t
  funext y
  obtain ⟨p, q, rfl⟩ : ∃ (p : Fin 3200) (q : Fin 128), y = ix2 p q := ⟨y 0, y 1, eq_ix2 y⟩
  have ht : t.val < 250 := t.isLt
  refine (inTile_of_rows (V m c main_v15) (iblk m c 0 t) (V m c main_v18) (V m c main_v22) (V m c main_v19) (V m c main_v23)
    ⟨t.val * 3200 + p.val, by have := p.isLt; omega⟩ p q (fun j => tileRow m c t p j)).trans ?_
  show inArr m c _ = inArr m c (((cfg0.win 10).blk t).view.emb (ix2 p q))
  refine congrArg (inArr m c) (funext fun a => Fin.ext ?_)
  match a with
  | ⟨0, _⟩ => show t.val * 3200 + p.val = win0_10.index t (0 : Fin 2) * 3200 + 1 * p.val; rw [e0]; omega
  | ⟨1, _⟩ => show q.val = win0_10.index t (1 : Fin 2) * 128 + 1 * q.val; rw [e1]; omega

/-- An index of a result array is in point t's block iff each coordinate is in the block's range on its axis. -/
theorem mem_blkOut (t : Fin cfg0.N) (i : S800000x128.Idx) :
    i ∈ ((cfg0.win 9).blk t).view.set ↔ ∀ a : Fin 2, win0_9.index t a * S3200x128.size a ≤ (i a).val
      ∧ (i a).val < win0_9.index t a * S3200x128.size a + S3200x128.size a := by
  show i ∈ ((View.whole main_v24_0).slice (win0_9.rect t)).set ↔ _
  rw [View.set_slice_whole, Rect.mem_set_unit]
  exact Iff.rfl
theorem mem_blkIn (t : Fin cfg0.N) (i : S800000x128.Idx) :
    i ∈ ((cfg0.win 10).blk t).view.set ↔ ∀ a : Fin 2, win0_10.index t a * S3200x128.size a ≤ (i a).val
      ∧ (i a).val < win0_10.index t a * S3200x128.size a + S3200x128.size a := by
  show i ∈ ((View.whole main_v24_1).slice (win0_10.rect t)).set ↔ _
  rw [View.set_slice_whole, Rect.mem_set_unit]
  exact Iff.rfl

/-- Every edge is in some tile: edge e is in the tile of point e / 3200. -/
theorem coverOut (i : S800000x128.Idx) : ∃ t : Fin cfg0.N, (cfg0.win 9).flush t = true ∧ i ∈ ((cfg0.win 9).blk t).view.set := by
  have hi0 : (i 0).val < 800000 := (i 0).isLt
  have hi1 : (i 1).val < 128 := (i 1).isLt
  let t : Fin cfg0.N := ⟨(i 0).val / 3200, by show _ < 250; omega⟩
  obtain ⟨-, -, e0, e1, -⟩ := idx_facts t
  have e0' : win0_9.index t (0 : Fin 2) = (i 0).val / 3200 := e0
  refine ⟨t, flush0_9 t, ?_⟩
  rw [mem_blkOut]
  intro a
  match a with
  | ⟨0, _⟩ => show win0_9.index t (0 : Fin 2) * 3200 ≤ (i 0).val ∧ (i 0).val < win0_9.index t (0 : Fin 2) * 3200 + 3200; rw [e0']; omega
  | ⟨1, _⟩ => show win0_9.index t (1 : Fin 2) * 128 ≤ (i 1).val ∧ (i 1).val < win0_9.index t (1 : Fin 2) * 128 + 128; rw [e1]; omega
theorem coverIn (i : S800000x128.Idx) : ∃ t : Fin cfg0.N, (cfg0.win 10).flush t = true ∧ i ∈ ((cfg0.win 10).blk t).view.set := by
  have hi0 : (i 0).val < 800000 := (i 0).isLt
  have hi1 : (i 1).val < 128 := (i 1).isLt
  let t : Fin cfg0.N := ⟨(i 0).val / 3200, by show _ < 250; omega⟩
  obtain ⟨-, -, -, -, e0, e1, -⟩ := idx_facts t
  have e0' : win0_10.index t (0 : Fin 2) = (i 0).val / 3200 := e0
  refine ⟨t, flush0_10 t, ?_⟩
  rw [mem_blkIn]
  intro a
  match a with
  | ⟨0, _⟩ => show win0_10.index t (0 : Fin 2) * 3200 ≤ (i 0).val ∧ (i 0).val < win0_10.index t (0 : Fin 2) * 3200 + 3200; rw [e0']; omega
  | ⟨1, _⟩ => show win0_10.index t (1 : Fin 2) * 128 ≤ (i 1).val ∧ (i 1).val < win0_10.index t (1 : Fin 2) * 128 + 128; rw [e1]; omega

/-- THE TWO RESULT ARRAYS after the run. -/
theorem finalOut (c : Dev nD) : (dats m 0 c).arrAt 9 cfg0.N = outArr m c :=
  (dats m 0 c).arrAt_eq_of_cover 9 (outArr m c) (fun t _ => flushedOut_eq m c t) coverOut
theorem finalIn (c : Dev nD) : (dats m 0 c).arrAt 10 cfg0.N = inArr m c :=
  (dats m 0 c).arrAt_eq_of_cover 10 (inArr m c) (fun t _ => flushedIn_eq m c t) coverIn

end Cert.EdgeFlow

end
-- ==== Proof.KernelHost.lean ====
/-
  What the kernel's host lines leave in the arrays its pipelined call reads, entry by entry.

  Before the call the host code builds, for the 800000 edges, a [800000, 193] array: columns 0 … 191 of row e are
  edge e's feature row (the 128 features of its source node, gathered by the col id, beside its own 64 attributes),
  column 192 is the difference row e − col e of its two node ids, subtracted as 32-bit words and read as a number.
  The four weight matrices are handed over unchanged (a change of float format is the identity on extended reals),
  and each bias vector as a one-row matrix. The feature rows are the very array the reference builds.
-/
import proofs.«174627_j2267742732915_1_alg».proof.Proof.Gen.KernelIdeal.Frame
import proofs.«174627_j2267742732915_1_alg».proof.Proof.Gen.ReferenceIdeal.Read
import proofs.«174627_j2267742732915_1_alg».proof.Proof.KernelTile
import proofs.«174627_j2267742732915_1_alg».proof.Proof.Spec
import Idealize.ShloMosaic.Lib.StableHlo.Run
import Idealize.ShloMosaic.Lib.Pipeline.Value
import Idealize.ShloMosaic.Lib.ValueIdx

noncomputable section

namespace Cert.EdgeFlow

open Cert.KernelIdeal Cert.KernelIdeal.Gen Idealize.ShloMosaic Idealize.ShloMosaic.ValueIdx Idealize.ShloMosaic.TcCoe Idealize.SL.Sem

/-! ## The host lines' terms -/

/-- The row ids as a vector: row 0 of the [2, 800000] id array. -/
def kRow (x1 : IVec S2x800000 32) : IVec S800000 32 :=
  shapeCast S800000 (extractStridedSlice S1x800000 ![0, 0] x1 slices_S2x800000_S1x800000_0_0) shapeCasts_S1x800000_S800000

/-- The col ids as a vector: row 1 of the [2, 800000] id array. -/
def kCol (x1 : IVec S2x800000 32) : IVec S800000 32 :=
  shapeCast S800000 (extractStridedSlice S1x800000 ![1, 0] x1 slices_S2x800000_S1x800000_1_0) shapeCasts_S1x800000_S800000

/-- The edges' feature rows as the kernel's host lines build them: the source-node rows, gathered by the col ids
    (a negative id counted from the end of the table), beside the edge attributes. -/
def kFeat (x0 : FVec Ideal S50000x128 .f32) (x1 : IVec S2x800000 32) (x2 : FVec Ideal S800000x64 .f32) :
    FVec Ideal S800000x192 .f32 :=
  concatenate S800000x192 1
    [⟨S800000x128, Host.gather gather_S50000x128_S800000x1_S800000x128_1_0_n_n_0_1_1128 x0
        (broadcastInDim S800000x1 ![0] bcast_S800000_S800000x1_0
          (select (cmpi .slt (kCol x1) (broadcastInDim S800000 ![] bcast_S_S800000 (constantI S_ 32 0#32)))
                  (addi (kCol x1) (broadcastInDim S800000 ![] bcast_S_S800000 (constantI S_ 32 50000#32)))
                  (kCol x1)))⟩,
     ⟨S800000x64, x2⟩] concatenates_S800000x128_S800000x64_S800000x192_d1

/-- The reference builds the same array of feature rows, operation for operation. -/
theorem kFeat_eq_ref (x0 : FVec Ideal S50000x128 .f32) (x1 : IVec S2x800000 32) (x2 : FVec Ideal S800000x64 .f32) :
    kFeat x0 x1 x2 = Cert.ReferenceIdeal.Read.val_main_v11 (F := Ideal) x0 x1 x2 := rfl

/-- Entry e of the row-id vector is entry (0, e) of the id array. -/
theorem kRow_apply (x1 : IVec S2x800000 32) (e : Fin 800000) : kRow x1 (ix1 e) = x1 (ix2 (0 : Fin 2) e) := by
  unfold kRow
  refine (shapeCast_apply _ shapeCasts_S1x800000_S800000 (ix1 e) (ix2 (0 : Fin 1) e) (by
    rw [Shape.rowMajor_val_two, Shape.rowMajor_val_one]; show 0 * 800000 + e.val = e.val; omega)).trans ?_
  exact extractStridedSlice_apply ![0, 0] x1 slices_S2x800000_S1x800000_0_0 (ix2 (0 : Fin 1) e) (ix2 (0 : Fin 2) e) (fun a => by
    match a with
    | ⟨0, _⟩ => show 0 = 0 + 0; rfl
    | ⟨1, _⟩ => show e.val = 0 + e.val; omega)

/-- Entry e of the col-id vector is entry (1, e) of the id array. -/
theorem kCol_apply (x1 : IVec S2x800000 32) (e : Fin 800000) : kCol x1 (ix1 e) = x1 (ix2 (1 : Fin 2) e) := by
  unfold kCol
  refine (shapeCast_apply _ shapeCasts_S1x800000_S800000 (ix1 e) (ix2 (0 : Fin 1) e) (by
    rw [Shape.rowMajor_val_two, Shape.rowMajor_val_one]; show 0 * 800000 + e.val = e.val; omega)).trans ?_
  exact extractStridedSlice_apply ![1, 0] x1 slices_S2x800000_S1x800000_1_0 (ix2 (0 : Fin 1) e) (ix2 (1 : Fin 2) e) (fun a => by
    match a with
    | ⟨0, _⟩ => show 1 = 1 + 0; rfl
    | ⟨1, _⟩ => show e.val = 0 + e.val; omega)

/-! ## The arrays when the call is entered -/

section entered
variable (m : (ℓ : Loc nD τ sig) → Buf (Elt Ideal) ℓ) (c : Dev nD)

/-- The [800000, 193] array: the feature rows beside the column of id differences. -/
theorem V_tile_eq :
    (V m c main_v15 : S800000x193.Idx → EReal)
      = concatenate S800000x193 1
          [⟨S800000x192, kFeat (m ((c : Thread nD τ).loc main_arg0)) (m ((c : Thread nD τ).loc main_arg1)) (m ((c : Thread nD τ).loc main_arg2))⟩,
           ⟨S800000x1, broadcastInDim S800000x1 ![0] bcast_S800000_S800000x1_0
              (sitofp (F := Ideal) .f32 (subi (kRow (m ((c : Thread nD τ).loc main_arg1))) (kCol (m ((c : Thread nD τ).loc main_arg1)))))⟩]
          concatenates_S800000x192_S800000x1_S800000x193_d1 := by
  show StableHlo.after hostOps0 (fun b => m (c, b)) (Proc.devRef .tc main_v15) = _
  after_results_simp
  rfl

/-- The row-id vector the host lines keep for the scatters after the call. -/
theorem V_rows_eq : (V m c main_v1 : S800000.Idx → BitVec 32) = kRow (m ((c : Thread nD τ).loc main_arg1)) := by
  show StableHlo.after hostOps0 (fun b => m (c, b)) (Proc.devRef .tc main_v1) = _
  after_results_simp
  rfl

/-- The four weight matrices are handed over entry for entry. -/
theorem V_w1_out_eq : (V m c main_v16 : S192x256.Idx → EReal) = (m ((c : Thread nD τ).loc main_arg3)) := by
  show StableHlo.after hostOps0 (fun b => m (c, b)) (Proc.devRef .tc main_v16) = _
  after_results_simp
  rfl
theorem V_w2_out_eq : (V m c main_v17 : S256x128.Idx → EReal) = (m ((c : Thread nD τ).loc main_arg5)) := by
  show StableHlo.after hostOps0 (fun b => m (c, b)) (Proc.devRef .tc main_v17) = _
  after_results_simp
  rfl
theorem V_w1_in_eq : (V m c main_v18 : S192x256.Idx → EReal) = (m ((c : Thread nD τ).loc main_arg7)) := by
  show StableHlo.after hostOps0 (fun b => m (c, b)) (Proc.devRef .tc main_v18) = _
  after_results_simp
  rfl
theorem V_w2_in_eq : (V m c main_v19 : S256x128.Idx → EReal) = (m ((c : Thread nD τ).loc main_arg9)) := by
  show StableHlo.after hostOps0 (fun b => m (c, b)) (Proc.devRef .tc main_v19) = _
  after_results_simp
  rfl

/-- The four bias vectors are handed over as one-row matrices. -/
theorem V_b1_out_eq : (V m c main_v20 : S1x256.Idx → EReal) = shapeCast S1x256 (m ((c : Thread nD τ).loc main_arg4)) shapeCasts_S256_S1x256 := by
  show StableHlo.after hostOps0 (fun b => m (c, b)) (Proc.devRef .tc main_v20) = _
  after_results_simp
  rfl
theorem V_b2_out_eq : (V m c main_v21 : S1x128.Idx → EReal) = shapeCast S1x128 (m ((c : Thread nD τ).loc main_arg6)) shapeCasts_S128_S1x128 := by
  show StableHlo.after hostOps0 (fun b => m (c, b)) (Proc.devRef .tc main_v21) = _
  after_results_simp
  rfl
theorem V_b1_in_eq : (V m c main_v22 : S1x256.Idx → EReal) = shapeCast S1x256 (m ((c : Thread nD τ).loc main_arg8)) shapeCasts_S256_S1x256 := by
  show StableHlo.after hostOps0 (fun b => m (c, b)) (Proc.devRef .tc main_v22) = _
  after_results_simp
  rfl
theorem V_b2_in_eq : (V m c main_v23 : S1x128.Idx → EReal) = shapeCast S1x128 (m ((c : Thread nD τ).loc main_arg10)) shapeCasts_S128_S1x128 := by
  show StableHlo.after hostOps0 (fun b => m (c, b)) (Proc.devRef .tc main_v23) = _
  after_results_simp
  rfl

/-! ## Read at an index -/

/-- Column j < 192 of row e is feature j of edge e. -/
theorem V_tile_feat (e : Fin 800000) (j : Fin 192) :
    V m c main_v15 (ix2 e (feat j)) = kFeat (m ((c : Thread nD τ).loc main_arg0)) (m ((c : Thread nD τ).loc main_arg1)) (m ((c : Thread nD τ).loc main_arg2)) (ix2 e j) :=
  (congrFun (V_tile_eq m c) (ix2 e (feat j))).trans
    (concatenate_pair_apply_left _ _ _ concatenates_S800000x192_S800000x1_S800000x193_d1 (ix2 e (feat j)) rfl (ix2 e j)
      (fun b => by match b with | ⟨0, _⟩ => rfl | ⟨1, _⟩ => rfl))

/-- Column 192 of row e is the difference of edge e's two ids, subtracted as words and read signed. -/
theorem V_tile_diff (e : Fin 800000) :
    V m c main_v15 (ix2 e diffCol) = diffOf ((m ((c : Thread nD τ).loc main_arg1)) (ix2 (0 : Fin 2) e)) ((m ((c : Thread nD τ).loc main_arg1)) (ix2 (1 : Fin 2) e)) := by
  refine (congrFun (V_tile_eq m c) (ix2 e diffCol)).trans ?_
  refine (concatenate_pair_apply_right _ _ _ concatenates_S800000x192_S800000x1_S800000x193_d1 (ix2 e diffCol) rfl rfl
    (ix2 e (0 : Fin 1)) (fun b hb => by
      match b, hb with
      | ⟨0, _⟩, _ => rfl
      | ⟨1, _⟩, hb => exact absurd rfl hb) rfl).trans ?_
  refine (broadcastInDim_apply _ bcast_S800000_S800000x1_0 _ (ix2 e (0 : Fin 1)) (ix1 e) (fun a => by
    match a with
    | ⟨0, _⟩ => show e.val = if (800000 : Nat) = 1 then 0 else e.val; rw [if_neg (by decide)])).trans ?_
  show ((((kRow (m ((c : Thread nD τ).loc main_arg1)) (ix1 e) - kCol (m ((c : Thread nD τ).loc main_arg1)) (ix1 e)).toInt : ℝ)) : EReal) = _
  rw [kRow_apply, kCol_apply]
  rfl

/-- The outgoing flow's first weight matrix. -/
theorem V_w1_out (j : Fin 192) (k : Fin 256) : V m c main_v16 (ix2 j k) = (m ((c : Thread nD τ).loc main_arg3)) (ix2 j k) :=
  congrFun (V_w1_out_eq m c) (ix2 j k)
/-- The outgoing flow's second weight matrix. -/
theorem V_w2_out (k : Fin 256) (q : Fin 128) : V m c main_v17 (ix2 k q) = (m ((c : Thread nD τ).loc main_arg5)) (ix2 k q) :=
  congrFun (V_w2_out_eq m c) (ix2 k q)
/-- The incoming flow's first weight matrix. -/
theorem V_w1_in (j : Fin 192) (k : Fin 256) : V m c main_v18 (ix2 j k) = (m ((c : Thread nD τ).loc main_arg7)) (ix2 j k) :=
  congrFun (V_w1_in_eq m c) (ix2 j k)
/-- The incoming flow's second weight matrix. -/
theorem V_w2_in (k : Fin 256) (q : Fin 128) : V m c main_v19 (ix2 k q) = (m ((c : Thread nD τ).loc main_arg9)) (ix2 k q) :=
  congrFun (V_w2_in_eq m c) (ix2 k q)

/-- A length-n vector as a one-row matrix reads, at (0, k), the vector at k. -/
private theorem rowOf_apply {α : Type} {n : ℕ} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  shapeCast_apply v h (ix2 (0 : Fin 1) k) (ix1 k) (by
    rw [Shape.rowMajor_val_two, Shape.rowMajor_val_one]; show k.val = 0 * n + k.val; omega)

/-- The outgoing flow's first bias. -/
theorem V_b1_out (k : Fin 256) : V m c main_v20 (ix2 (0 : Fin 1) k) = (m ((c : Thread nD τ).loc main_arg4)) (ix1 k) :=
  (congrFun (V_b1_out_eq m c) (ix2 (0 : Fin 1) k)).trans (rowOf_apply _ shapeCasts_S256_S1x256 k)
/-- The outgoing flow's second bias. -/
theorem V_b2_out (q : Fin 128) : V m c main_v21 (ix2 (0 : Fin 1) q) = (m ((c : Thread nD τ).loc main_arg6)) (ix1 q) :=
  (congrFun (V_b2_out_eq m c) (ix2 (0 : Fin 1) q)).trans (rowOf_apply _ shapeCasts_S128_S1x128 q)
/-- The incoming flow's first bias. -/
theorem V_b1_in (k : Fin 256) : V m c main_v22 (ix2 (0 : Fin 1) k) = (m ((c : Thread nD τ).loc main_arg8)) (ix1 k) :=
  (congrFun (V_b1_in_eq m c) (ix2 (0 : Fin 1) k)).trans (rowOf_apply _ shapeCasts_S256_S1x256 k)
/-- The incoming flow's second bias. -/
theorem V_b2_in (q : Fin 128) : V m c main_v23 (ix2 (0 : Fin 1) q) = (m ((c : Thread nD τ).loc main_arg10)) (ix1 q) :=
  (congrFun (V_b2_in_eq m c) (ix2 (0 : Fin 1) q)).trans (rowOf_apply _ shapeCasts_S128_S1x128 q)

/-- Entry e of the kept row-id vector is entry (0, e) of the id array. -/
theorem V_row_ids (e : Fin 800000) : V m c main_v1 (ix1 e) = (m ((c : Thread nD τ).loc main_arg1)) (ix2 (0 : Fin 2) e) :=
  (congrFun (V_rows_eq m c) (ix1 e)).trans (kRow_apply _ e)

end entered

end Cert.EdgeFlow

end
-- ==== Proof.KernelTail.lean ====
/-
  What the kernel program's last lines compute, as one term.

  After the call the program has nine more lines: a zero table of 50000 rows by 128 columns, the row ids as a
  column, the accumulating row scatter of the call's first result into the zero table at those ids, the same three
  lines for the call's second result, and the concatenation of the two tables along the columns, the second
  result's table first. Run from any buffer contents, these lines leave in the result buffer that concatenation,
  read at the contents of the three buffers they read (the row ids and the call's two results). At the contents the
  call leaves — its arrays at what the frame computes for them, every other buffer as the earlier lines left it —
  this is the term stated below. The frame's run, re-posted at the result buffer and the eleven arguments, follows.
-/
import proofs.«174627_j2267742732915_1_alg».proof.Proof.Gen.KernelIdeal.Frame
import proofs.«174627_j2267742732915_1_alg».proof.Proof.Spec
import Idealize.ShloMosaic.Lib.StableHlo.Run
import Idealize.ShloMosaic.Lib.Pipeline.FrameSuffix

set_option maxRecDepth 16384

noncomputable section

namespace Cert.EdgeFlow.KernelTail

open Cert.KernelIdeal Cert.KernelIdeal.Gen Idealize.ShloMosaic Idealize.ShloMosaic.ValueIdx Idealize.ShloMosaic.TcCoe Idealize.SL.Sem

/-- The nine host lines after the call, run from any buffer contents W, leave in the result buffer the
    concatenation along the columns of two accumulating row scatters into zero tables, both at the row ids read as a
    column: the first of the call's second result, the second of its first. -/
theorem tail_after (W : Valuation τ sig (Elt Ideal)) :
    StableHlo.after (hostOps1 (F := Ideal)) W (Proc.devRef .tc main_v31)
      = concatenate S50000x256 1
          [⟨S50000x128, Host.scatterAdd scatter_S50000x128_S800000x1_S800000x128_1_0_0_1
              (broadcastInDim S50000x128 ![] bcast_S_S50000x128 (constant (F := Ideal) S_ .f32 0x00000000#32))
              (broadcastInDim S800000x1 ![0] bcast_S800000_S800000x1_0 (W (Proc.devRef .tc main_v1)))
              (W (Proc.devRef .tc main_v24_1))⟩,
           ⟨S50000x128, Host.scatterAdd scatter_S50000x128_S800000x1_S800000x128_1_0_0_1
              (broadcastInDim S50000x128 ![] bcast_S_S50000x128 (constant (F := Ideal) S_ .f32 0x00000000#32))
              (broadcastInDim S800000x1 ![0] bcast_S800000_S800000x1_0 (W (Proc.devRef .tc main_v1)))
              (W (Proc.devRef .tc main_v24_0))⟩]
          concatenates_S50000x128_S50000x128_S50000x256_d1 := by
  after_results

end Cert.EdgeFlow.KernelTail

namespace Cert.EdgeFlow

open Cert.KernelIdeal Cert.KernelIdeal.Gen Idealize.ShloMosaic Idealize.ShloMosaic.ValueIdx Idealize.ShloMosaic.TcCoe Idealize.SL.Sem
open Cert.EdgeFlow.KernelTail

/-- The result buffer after the program's last lines: the two scatters of the call's results, the second result's
    first, side by side. The row ids are as the lines before the call left them; the call's results are its arrays
    9 and 10 at what the frame computes for them. -/
theorem tail_eq (m : (ℓ : Loc nD τ sig) → Buf (Elt Ideal) ℓ) (c : Dev nD) :
    Pipeline.afterTail₀ cfgs (dats m) 0 (V0 m) [hostOps1] c main_v31
      = concatenate S50000x256 1
          [⟨S50000x128, Host.scatterAdd scatter_S50000x128_S800000x1_S800000x128_1_0_0_1
              (broadcastInDim S50000x128 ![] bcast_S_S50000x128 (constant (F := Ideal) S_ .f32 0x00000000#32))
              (broadcastInDim S800000x1 ![0] bcast_S800000_S800000x1_0 (V m c main_v1))
              ((dats m 0 c).arrAt 10 cfg0.N)⟩,
           ⟨S50000x128, Host.scatterAdd scatter_S50000x128_S800000x1_S800000x128_1_0_0_1
              (broadcastInDim S50000x128 ![] bcast_S_S50000x128 (constant (F := Ideal) S_ .f32 0x00000000#32))
              (broadcastInDim S800000x1 ![0] bcast_S800000_S800000x1_0 (V m c main_v1))
              ((dats m 0 c).arrAt 9 cfg0.N)⟩]
          concatenates_S50000x128_S50000x128_S50000x256_d1 := by
  unfold Pipeline.afterTail₀
  show StableHlo.after hostOps1 _ (Proc.devRef .tc main_v31) = _
  rw [tail_after]
  -- the row ids are no array of the call: they are as the lines before the call left them
  have e1 := Pipeline.withArrays_of_ne spec0 c (V0 m c) (fun w => (dats m 0 c).arrAt w cfg0.N) main_v1
    (by exact (by decide : ∀ w, Pipeline.arrRef spec0 w ≠ main_v1))
  -- the call's two results are its arrays 9 and 10
  have e9 : Pipeline.withArrays spec0 c (V0 m c) (fun w => (dats m 0 c).arrAt w cfg0.N) (Proc.devRef .tc main_v24_0)
      = (dats m 0 c).arrAt 9 cfg0.N :=
    Pipeline.withArrays_arr spec0 launch0.win.arr_inj c (V0 m c) (fun w => (dats m 0 c).arrAt w cfg0.N) 9
  have e10 : Pipeline.withArrays spec0 c (V0 m c) (fun w => (dats m 0 c).arrAt w cfg0.N) (Proc.devRef .tc main_v24_1)
      = (dats m 0 c).arrAt 10 cfg0.N :=
    Pipeline.withArrays_arr spec0 launch0.win.arr_inj c (V0 m c) (fun w => (dats m 0 c).arrAt w cfg0.N) 10
  rw [e1, e9, e10]

/-- Every weakly fair run of the kernel program ends; at its end the result buffer holds what the last lines compute
    from the call's exit contents, and each of the eleven arguments holds what it held at the start. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = Pipeline.afterTail₀ cfgs (dats m) 0 (V0 m) [hostOps1] c main_v31
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c).2 main_v31 (Pipeline.mem_restRefs_of main_v31 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.EdgeFlow

end
-- ==== Proof.RefRead.lean ====
/-
  The reference program's edge-level updates, read at an index.

  For an edge e, the reference forms the feature row (row e of the joined [800000, 192] array), applies the
  two-layer perceptron of one flow to it, and multiplies every coordinate of the result by the number 1 or 0 that the
  signed comparison of the edge's two node ids gives (row e < col e for the outgoing flow, row e > col e for the
  incoming one). The scatter indices of both flows are the column of row ids. Each fact below is obtained by
  reading the operations one after another at the index (e, q) and identifying the composed index maps with
  plain coordinates.
-/
import proofs.«174627_j2267742732915_1_alg».proof.Proof.Gen.ReferenceIdeal.Read
import proofs.«174627_j2267742732915_1_alg».proof.Proof.Spec
import Idealize.ShloMosaic.Lib.ValueIdx
import Idealize.ShloMosaic.Lib.Pipeline.Value
import Idealize.ShloMosaic.PureOps.Ideal.Laws

noncomputable section

namespace Cert.EdgeFlow

open Cert.ReferenceIdeal Cert.ReferenceIdeal.Read Idealize.ShloMosaic Idealize.ShloMosaic.ValueIdx

/-! ## The index maps at plain coordinates -/

/-- Column 0 of the [800000, 1] index column, at row e, reads entry e of the length-800000 vector. -/
private theorem idx_col_to_vec (e : Fin 800000) : idx_main_v27 (ix2 e (0 : Fin 1)) = ix1 e :=
  funext fun a => Fin.ext (by match a with | ⟨0, _⟩ => rfl)

private theorem idx_col_to_vec' (e : Fin 800000) : idx_main_v44 (ix2 e (0 : Fin 1)) = ix1 e :=
  funext fun a => Fin.ext (by match a with | ⟨0, _⟩ => rfl)

private theorem idx_col_to_vec_f (e : Fin 800000) : idx_main_v14 (ix2 e (0 : Fin 1)) = ix1 e :=
  funext fun a => Fin.ext (by match a with | ⟨0, _⟩ => rfl)

private theorem idx_col_to_vec_f' (e : Fin 800000) : idx_main_v31 (ix2 e (0 : Fin 1)) = ix1 e :=
  funext fun a => Fin.ext (by match a with | ⟨0, _⟩ => rfl)

/-- Entry e of the reshaped vector is entry (0, e) of the [1, 800000] slice: e mod 800000 = e. -/
private theorem idx_vec_to_slice (e : Fin 800000) : idx_main_v1 (ix1 e) = ix2 (0 : Fin 1) e :=
  funext fun a => Fin.ext (by
    match a with
    | ⟨0, _⟩ => rfl
    | ⟨1, _⟩ => show e.val % 800000 = e.val; exact Nat.mod_eq_of_lt e.isLt)

private theorem idx_vec_to_slice' (e : Fin 800000) : idx_main_v3 (ix1 e) = ix2 (0 : Fin 1) e :=
  funext fun a => Fin.ext (by
    match a with
    | ⟨0, _⟩ => rfl
    | ⟨1, _⟩ => show e.val % 800000 = e.val; exact Nat.mod_eq_of_lt e.isLt)

/-- The first slice is row 0 of the id array. -/
private theorem idx_slice_row (e : Fin 800000) : idx_main_v0 (ix2 (0 : Fin 1) e) = ix2 (0 : Fin 2) e :=
  funext fun a => Fin.ext (by match a with | ⟨0, _⟩ => rfl | ⟨1, _⟩ => rfl)

/-- The second slice is row 1 of the id array. -/
private theorem idx_slice_col (e : Fin 800000) : idx_main_v2 (ix2 (0 : Fin 1) e) = ix2 (1 : Fin 2) e :=
  funext fun a => Fin.ext (by match a with | ⟨0, _⟩ => rfl | ⟨1, _⟩ => rfl)

/-- The mask column is broadcast along the 128 coordinates: (e, q) reads (e, 0). -/
private theorem idx_mask_bcast (e : Fin 800000) (q : Fin 128) : idx_main_v24 (ix2 e q) = ix2 e (0 : Fin 1) :=
  funext fun a => Fin.ext (by match a with | ⟨0, _⟩ => rfl | ⟨1, _⟩ => rfl)

private theorem idx_mask_bcast' (e : Fin 800000) (q : Fin 128) : idx_main_v41 (ix2 e q) = ix2 e (0 : Fin 1) :=
  funext fun a => Fin.ext (by match a with | ⟨0, _⟩ => rfl | ⟨1, _⟩ => rfl)

/-- The first contraction: at (e, k), term j reads the feature row at (e, j) and the weight at (j, k). -/
private theorem lidx1 (e : Fin 800000) (k : Fin 256) (j : Fin 192) : lidx_main_v15 (ix2 e k) j = ix2 e j :=
  funext fun a => Fin.ext (by match a with | ⟨0, _⟩ => rfl | ⟨1, _⟩ => rfl)
private theorem ridx1 (e : Fin 800000) (k : Fin 256) (j : Fin 192) : ridx_main_v15 (ix2 e k) j = ix2 j k :=
  funext fun a => Fin.ext (by match a with | ⟨0, _⟩ => rfl | ⟨1, _⟩ => rfl)
private theorem lidx1' (e : Fin 800000) (k : Fin 256) (j : Fin 192) : lidx_main_v32 (ix2 e k) j = ix2 e j :=
  funext fun a => Fin.ext (by match a with | ⟨0, _⟩ => rfl | ⟨1, _⟩ => rfl)
private theorem ridx1' (e : Fin 800000) (k : Fin 256) (j : Fin 192) : ridx_main_v32 (ix2 e k) j = ix2 j k :=
  funext fun a => Fin.ext (by match a with | ⟨0, _⟩ => rfl | ⟨1, _⟩ => rfl)

/-- The first bias, broadcast along the edges: (e, k) reads entry k. -/
private theorem idx_b1 (e : Fin 800000) (k : Fin 256) : idx_main_v16 (idx_main_v17 (ix2 e k)) = ix1 k :=
  funext fun a => Fin.ext (by match a with | ⟨0, _⟩ => rfl)
private theorem idx_b1' (e : Fin 800000) (k : Fin 256) : idx_main_v33 (idx_main_v34 (ix2 e k)) = ix1 k :=
  funext fun a => Fin.ext (by match a with | ⟨0, _⟩ => rfl)

/-- The second contraction: at (e, q), term k reads the hidden row at (e, k) and the weight at (k, q). -/
private theorem lidx2 (e : Fin 800000) (q : Fin 128) (k : Fin 256) : lidx_main_v20 (ix2 e q) k = ix2 e k :=
  funext fun a => Fin.ext (by match a with | ⟨0, _⟩ => rfl | ⟨1, _⟩ => rfl)
private theorem ridx2 (e : Fin 800000) (q : Fin 128) (k : Fin 256) : ridx_main_v20 (ix2 e q) k = ix2 k q :=
  funext fun a => Fin.ext (by match a with | ⟨0, _⟩ => rfl | ⟨1, _⟩ => rfl)
private theorem lidx2' (e : Fin 800000) (q : Fin 128) (k : Fin 256) : lidx_main_v37 (ix2 e q) k = ix2 e k :=
  funext fun a => Fin.ext (by match a with | ⟨0, _⟩ => rfl | ⟨1, _⟩ => rfl)
private theorem ridx2' (e : Fin 800000) (q : Fin 128) (k : Fin 256) : ridx_main_v37 (ix2 e q) k = ix2 k q :=
  funext fun a => Fin.ext (by match a with | ⟨0, _⟩ => rfl | ⟨1, _⟩ => rfl)

/-- The second bias, broadcast along the edges: (e, q) reads entry q. -/
private theorem idx_b2 (e : Fin 800000) (q : Fin 128) : idx_main_v21 (idx_main_v22 (ix2 e q)) = ix1 q :=
  funext fun a => Fin.ext (by match a with | ⟨0, _⟩ => rfl)
private theorem idx_b2' (e : Fin 800000) (q : Fin 128) : idx_main_v38 (idx_main_v39 (ix2 e q)) = ix1 q :=
  funext fun a => Fin.ext (by match a with | ⟨0, _⟩ => rfl)

/-! ## The two ids of an edge -/

section ids
variable (x1 : (⟨S2x800000, .i32⟩ : BufTy).Contents (Elt Ideal)) (e : Fin 800000)

/-- The row id of edge e is entry (0, e) of the id array. -/
theorem ref_row_id : val_main_v1 (F := Ideal) x1 (ix1 e) = x1 (ix2 (0 : Fin 2) e) := by
  rw [val_main_v1_apply, idx_vec_to_slice, val_main_v0_apply, idx_slice_row]

/-- The col id of edge e is entry (1, e) of the id array. -/
theorem ref_col_id : val_main_v3 (F := Ideal) x1 (ix1 e) = x1 (ix2 (1 : Fin 2) e) := by
  rw [val_main_v3_apply, idx_vec_to_slice', val_main_v2_apply, idx_slice_col]

/-- The outgoing scatter's index column holds the row ids. -/
theorem ref_idx_out : val_main_v27 (F := Ideal) x1 (ix2 e (0 : Fin 1)) = x1 (ix2 (0 : Fin 2) e) := by
  rw [val_main_v27_apply, idx_col_to_vec, ref_row_id]

/-- The incoming scatter's index column holds the row ids too. -/
theorem ref_idx_in : val_main_v44 (F := Ideal) x1 (ix2 e (0 : Fin 1)) = x1 (ix2 (0 : Fin 2) e) := by
  rw [val_main_v44_apply, idx_col_to_vec', ref_row_id]

/-- The outgoing mask at (e, q): the truth value of row e < col e, read as a number. -/
theorem ref_mask_out (q : Fin 128) :
    val_main_v24 (F := Ideal) x1 (ix2 e q) = idMask .slt (x1 (ix2 (0 : Fin 2) e)) (x1 (ix2 (1 : Fin 2) e)) := by
  rw [val_main_v24_apply, idx_mask_bcast, val_main_v14_apply, idx_col_to_vec_f, val_main_v13_apply,
    val_main_v12_apply, ref_row_id, ref_col_id]
  rfl

/-- The incoming mask at (e, q): the truth value of row e > col e, read as a number. -/
theorem ref_mask_in (q : Fin 128) :
    val_main_v41 (F := Ideal) x1 (ix2 e q) = idMask .sgt (x1 (ix2 (0 : Fin 2) e)) (x1 (ix2 (1 : Fin 2) e)) := by
  rw [val_main_v41_apply, idx_mask_bcast', val_main_v31_apply, idx_col_to_vec_f', val_main_v30_apply,
    val_main_v29_apply, ref_row_id, ref_col_id]
  rfl

end ids

/-! ## The perceptron of one edge -/

section mlp
variable (x0 : (⟨S50000x128, .f32⟩ : BufTy).Contents (Elt Ideal))
  (x1 : (⟨S2x800000, .i32⟩ : BufTy).Contents (Elt Ideal))
  (x2 : (⟨S800000x64, .f32⟩ : BufTy).Contents (Elt Ideal))
  (W1 : (⟨S192x256, .f32⟩ : BufTy).Contents (Elt Ideal)) (b1 : (⟨S256, .f32⟩ : BufTy).Contents (Elt Ideal))
  (W2 : (⟨S256x128, .f32⟩ : BufTy).Contents (Elt Ideal)) (b2 : (⟨S128, .f32⟩ : BufTy).Contents (Elt Ideal))
  (e : Fin 800000)

/-- The broadcast zero the rectifier compares against. -/
theorem ref_zero_out (i : S800000x256.Idx) : val_main_call0_v0 (F := Ideal) i = 0 := by
  rw [val_main_call0_v0_apply, val_main_call0_cst_apply, Ideal.ofBits_def, Ideal.ofBits_zero_f32]

theorem ref_zero_in (i : S800000x256.Idx) : val_main_call1_v0 (F := Ideal) i = 0 := by
  rw [val_main_call1_v0_apply, val_main_call1_cst_apply, Ideal.ofBits_def, Ideal.ofBits_zero_f32]

/-- The outgoing flow's hidden layer at (e, k): the rectified affine image of the feature row. -/
theorem ref_hidden_out (k : Fin 256) :
    val_main_v19 (F := Ideal) x0 x1 x2 W1 b1 (ix2 e k)
      = max ((∑ j : Fin 192, val_main_v11 (F := Ideal) x0 x1 x2 (ix2 e j) * W1 (ix2 j k)) + b1 (ix1 k)) 0 := by
  rw [val_main_v19_apply, val_main_v18_apply, val_main_v15_apply, val_main_v17_apply, val_main_v16_apply,
    ref_zero_out, idx_b1, Ideal.maximumf_def, Ideal.addf_def]
  simp only [lidx1, ridx1]

/-- The incoming flow's hidden layer at (e, k). -/
theorem ref_hidden_in (k : Fin 256) :
    val_main_v36 (F := Ideal) x0 x1 x2 W1 b1 (ix2 e k)
      = max ((∑ j : Fin 192, val_main_v11 (F := Ideal) x0 x1 x2 (ix2 e j) * W1 (ix2 j k)) + b1 (ix1 k)) 0 := by
  rw [val_main_v36_apply, val_main_v35_apply, val_main_v32_apply, val_main_v34_apply, val_main_v33_apply,
    ref_zero_in, idx_b1', Ideal.maximumf_def, Ideal.addf_def]
  simp only [lidx1', ridx1']

/-- The outgoing flow's unmasked row at (e, q) is the perceptron of the feature row. -/
theorem ref_mlp_out (q : Fin 128) :
    val_main_v23 (F := Ideal) x0 x1 x2 W1 b1 W2 b2 (ix2 e q)
      = mlpRow (fun j => val_main_v11 (F := Ideal) x0 x1 x2 (ix2 e j)) (fun j k => W1 (ix2 j k)) (fun k => b1 (ix1 k))
          (fun k q' => W2 (ix2 k q')) (fun q' => b2 (ix1 q')) q := by
  rw [val_main_v23_apply, val_main_v20_apply, val_main_v22_apply, val_main_v21_apply, idx_b2, Ideal.addf_def]
  unfold mlpRow
  simp only [lidx2, ridx2, ref_hidden_out]

/-- The incoming flow's unmasked row at (e, q) is the perceptron of the feature row. -/
theorem ref_mlp_in (q : Fin 128) :
    val_main_v40 (F := Ideal) x0 x1 x2 W1 b1 W2 b2 (ix2 e q)
      = mlpRow (fun j => val_main_v11 (F := Ideal) x0 x1 x2 (ix2 e j)) (fun j k => W1 (ix2 j k)) (fun k => b1 (ix1 k))
          (fun k q' => W2 (ix2 k q')) (fun q' => b2 (ix1 q')) q := by
  rw [val_main_v40_apply, val_main_v37_apply, val_main_v39_apply, val_main_v38_apply, idx_b2', Ideal.addf_def]
  unfold mlpRow
  simp only [lidx2', ridx2', ref_hidden_in]

end mlp

/-! ## The masked updates -/

/-- The outgoing flow's update at (e, q): the perceptron of edge e's feature row, kept when row e < col e. -/
theorem ref_out_apply (x0 : (⟨S50000x128, .f32⟩ : BufTy).Contents (Elt Ideal))
    (x1 : (⟨S2x800000, .i32⟩ : BufTy).Contents (Elt Ideal)) (x2 : (⟨S800000x64, .f32⟩ : BufTy).Contents (Elt Ideal))
    (x3 : (⟨S192x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (e : Fin 800000) (q : Fin 128) :
    val_main_v25 (F := Ideal) x0 x1 x2 x3 x4 x5 x6 (ix2 e q)
      = mlpRow (fun j => val_main_v11 (F := Ideal) x0 x1 x2 (ix2 e j)) (fun j k => x3 (ix2 j k)) (fun k => x4 (ix1 k))
            (fun k q' => x5 (ix2 k q')) (fun q' => x6 (ix1 q')) q
          * idMask .slt (x1 (ix2 (0 : Fin 2) e)) (x1 (ix2 (1 : Fin 2) e)) := by
  rw [val_main_v25_apply, ref_mlp_out, ref_mask_out, Ideal.mulf_def]

/-- The incoming flow's update at (e, q): the perceptron of edge e's feature row, kept when row e > col e. -/
theorem ref_in_apply (x0 : (⟨S50000x128, .f32⟩ : BufTy).Contents (Elt Ideal))
    (x1 : (⟨S2x800000, .i32⟩ : BufTy).Contents (Elt Ideal)) (x2 : (⟨S800000x64, .f32⟩ : BufTy).Contents (Elt Ideal))
    (x7 : (⟨S192x256, .f32⟩ : BufTy).Contents (Elt Ideal)) (x8 : (⟨S256, .f32⟩ : BufTy).Contents (Elt Ideal))
    (x9 : (⟨S256x128, .f32⟩ : BufTy).Contents (Elt Ideal)) (x10 : (⟨S128, .f32⟩ : BufTy).Contents (Elt Ideal))
    (e : Fin 800000) (q : Fin 128) :
    val_main_v42 (F := Ideal) x0 x1 x2 x7 x8 x9 x10 (ix2 e q)
      = mlpRow (fun j => val_main_v11 (F := Ideal) x0 x1 x2 (ix2 e j)) (fun j k => x7 (ix2 j k)) (fun k => x8 (ix1 k))
            (fun k q' => x9 (ix2 k q')) (fun q' => x10 (ix1 q')) q
          * idMask .sgt (x1 (ix2 (0 : Fin 2) e)) (x1 (ix2 (1 : Fin 2) e)) := by
  rw [val_main_v42_apply, ref_mlp_in, ref_mask_in, Ideal.mulf_def]

end Cert.EdgeFlow

end
-- ==== Proof.Masks.lean ====
/-
  The two masks agree on node ids.

  For two ids r and c, both node numbers in [0, 50000) when read as signed 32-bit words, the word difference
  r − c does not wrap: its signed reading is the integer r − c, which lies in (−50000, 50000). So the difference,
  read as a number, is negative exactly when r < c and positive exactly when r > c. The kernel's mask is the truth
  value of that sign test, widened to a word and read signed; the reference's mask is the truth value of the
  signed comparison of the two ids, read unsigned. Either way the truth value is a single bit, and both readings
  send a set bit to 1 and a clear bit to 0.
-/
import Mathlib.Data.EReal.Basic
import proofs.«174627_j2267742732915_1_alg».proof.Proof.Spec

noncomputable section

namespace Cert.EdgeFlow.Masks

open Idealize.ShloMosaic

/-- The signed reading of the word difference of two node ids is the difference of their signed readings:
    an integer in (−50000, 50000) is its own balanced residue modulo 2³². -/
theorem toInt_sub_ids (r c : BitVec 32) (hr0 : 0 ≤ r.toInt) (hr : r.toInt < 50000)
    (hc0 : 0 ≤ c.toInt) (hc : c.toInt < 50000) : (r - c).toInt = r.toInt - c.toInt := by
  rw [BitVec.toInt_sub]
  exact Int.bmod_eq_of_le (by norm_num; omega) (by norm_num; omega)

/-- The difference read as a number is negative exactly when r < c. -/
theorem diffOf_lt_zero_iff (r c : BitVec 32) (hr0 : 0 ≤ r.toInt) (hr : r.toInt < 50000)
    (hc0 : 0 ≤ c.toInt) (hc : c.toInt < 50000) : diffOf r c < 0 ↔ r.toInt < c.toInt := by
  unfold diffOf
  rw [toInt_sub_ids r c hr0 hr hc0 hc]
  rw [show (0 : EReal) = ((0 : ℝ) : EReal) from rfl, EReal.coe_lt_coe_iff]
  rw [show (0 : ℝ) = ((0 : Int) : ℝ) by norm_num, Int.cast_lt]
  omega

/-- The difference read as a number is positive exactly when c < r. -/
theorem zero_lt_diffOf_iff (r c : BitVec 32) (hr0 : 0 ≤ r.toInt) (hr : r.toInt < 50000)
    (hc0 : 0 ≤ c.toInt) (hc : c.toInt < 50000) : 0 < diffOf r c ↔ c.toInt < r.toInt := by
  unfold diffOf
  rw [toInt_sub_ids r c hr0 hr hc0 hc]
  rw [show (0 : EReal) = ((0 : ℝ) : EReal) from rfl, EReal.coe_lt_coe_iff]
  rw [show (0 : ℝ) = ((0 : Int) : ℝ) by norm_num, Int.cast_lt]
  omega

/-! The two readings of a single bit: widened to 32 bits and read signed, or read unsigned as it is. -/

theorem setWidth_true_toInt : ((BitVec.ofBool true).setWidth 32).toInt = 1 := by decide
theorem setWidth_false_toInt : ((BitVec.ofBool false).setWidth 32).toInt = 0 := by decide
theorem ofBool_true_toNat : (BitVec.ofBool true).toNat = 1 := by decide
theorem ofBool_false_toNat : (BitVec.ofBool false).toNat = 0 := by decide

/-- The signed word comparison as a decision on the signed readings. -/
theorem slt_eq_decide_toInt (x y : BitVec 32) : x.slt y = decide (x.toInt < y.toInt) := by
  rw [Bool.eq_iff_iff, BitVec.slt_iff_toInt_lt]; simp

end Cert.EdgeFlow.Masks

namespace Cert.EdgeFlow

open Idealize.ShloMosaic Cert.EdgeFlow.Masks

/-- Outgoing flow: "difference < 0", widened and read signed, is "r < c signed", read unsigned. -/
theorem diffMask_lt_eq (r c : BitVec 32) (hr0 : 0 ≤ r.toInt) (hr : r.toInt < 50000) (hc0 : 0 ≤ c.toInt) (hc : c.toInt < 50000) :
    diffMask .olt (diffOf r c) = idMask .slt r c := by
  have hk := diffOf_lt_zero_iff r c hr0 hr hc0 hc
  unfold diffMask idMask Ideal.cmp IntOp.cmpi
  dsimp only
  rw [slt_eq_decide_toInt]
  by_cases hlt : r.toInt < c.toInt
  · have h1 : diffOf r c < 0 := hk.mpr hlt
    rw [decide_eq_true h1, decide_eq_true hlt, setWidth_true_toInt, ofBool_true_toNat]
    norm_num
  · have h1 : ¬ diffOf r c < 0 := fun h => hlt (hk.mp h)
    rw [decide_eq_false h1, decide_eq_false hlt, setWidth_false_toInt, ofBool_false_toNat]
    norm_num

/-- Incoming flow: "difference > 0", widened and read signed, is "r > c signed", read unsigned. -/
theorem diffMask_gt_eq (r c : BitVec 32) (hr0 : 0 ≤ r.toInt) (hr : r.toInt < 50000) (hc0 : 0 ≤ c.toInt) (hc : c.toInt < 50000) :
    diffMask .ogt (diffOf r c) = idMask .sgt r c := by
  have hk := zero_lt_diffOf_iff r c hr0 hr hc0 hc
  unfold diffMask idMask Ideal.cmp IntOp.cmpi
  dsimp only
  rw [slt_eq_decide_toInt]
  by_cases hlt : c.toInt < r.toInt
  · have h1 : 0 < diffOf r c := hk.mpr hlt
    rw [decide_eq_true h1, decide_eq_true hlt, setWidth_true_toInt, ofBool_true_toNat]
    norm_num
  · have h1 : ¬ 0 < diffOf r c := fun h => hlt (hk.mp h)
    rw [decide_eq_false h1, decide_eq_false hlt, setWidth_false_toInt, ofBool_false_toNat]
    norm_num

end Cert.EdgeFlow

end
-- ==== Proof.Bridge.lean ====
/-
  The two programs end with equal results.

  Both end the same way: the edge-level results of the incoming and of the outgoing flow are summed per row id into
  two zero tables of 50000 rows, and the two tables are joined side by side. So it is enough that the edge-level
  results agree on every edge whose row id is a row of the table — the others are dropped by both. On such an edge
  the feature rows are the same array, the weights and biases the same arrays (a change of float format is the
  identity on extended reals), and the masks agree because, the column id being a node number by the precondition
  and the row id by the edge being kept, the word subtraction the kernel's mask reads does not wrap.
-/
import proofs.«174627_j2267742732915_1_alg».proof.Proof.KernelBlocks
import proofs.«174627_j2267742732915_1_alg».proof.Proof.KernelHost
import proofs.«174627_j2267742732915_1_alg».proof.Proof.KernelTail
import proofs.«174627_j2267742732915_1_alg».proof.Proof.RefRead
import proofs.«174627_j2267742732915_1_alg».proof.Proof.Masks

set_option maxRecDepth 16384

noncomputable section

namespace Cert.EdgeFlow

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (c : Dev nD)

/-- The eleven arguments as the launch memory holds them. -/
abbrev xs (m : (ℓ : Loc nD τ sig) → Buf (Elt Ideal) ℓ) (c : Dev nD) : FVec Ideal S50000x128 .f32 := m ((c : Thread nD τ).loc main_arg0)
abbrev ids (m : (ℓ : Loc nD τ sig) → Buf (Elt Ideal) ℓ) (c : Dev nD) : IVec S2x800000 32 := m ((c : Thread nD τ).loc main_arg1)
abbrev attrs (m : (ℓ : Loc nD τ sig) → Buf (Elt Ideal) ℓ) (c : Dev nD) : FVec Ideal S800000x64 .f32 := m ((c : Thread nD τ).loc main_arg2)
abbrev w1o (m : (ℓ : Loc nD τ sig) → Buf (Elt Ideal) ℓ) (c : Dev nD) : FVec Ideal S192x256 .f32 := m ((c : Thread nD τ).loc main_arg3)
abbrev b1o (m : (ℓ : Loc nD τ sig) → Buf (Elt Ideal) ℓ) (c : Dev nD) : FVec Ideal S256 .f32 := m ((c : Thread nD τ).loc main_arg4)
abbrev w2o (m : (ℓ : Loc nD τ sig) → Buf (Elt Ideal) ℓ) (c : Dev nD) : FVec Ideal S256x128 .f32 := m ((c : Thread nD τ).loc main_arg5)
abbrev b2o (m : (ℓ : Loc nD τ sig) → Buf (Elt Ideal) ℓ) (c : Dev nD) : FVec Ideal S128 .f32 := m ((c : Thread nD τ).loc main_arg6)
abbrev w1i (m : (ℓ : Loc nD τ sig) → Buf (Elt Ideal) ℓ) (c : Dev nD) : FVec Ideal S192x256 .f32 := m ((c : Thread nD τ).loc main_arg7)
abbrev b1i (m : (ℓ : Loc nD τ sig) → Buf (Elt Ideal) ℓ) (c : Dev nD) : FVec Ideal S256 .f32 := m ((c : Thread nD τ).loc main_arg8)
abbrev w2i (m : (ℓ : Loc nD τ sig) → Buf (Elt Ideal) ℓ) (c : Dev nD) : FVec Ideal S256x128 .f32 := m ((c : Thread nD τ).loc main_arg9)
abbrev b2i (m : (ℓ : Loc nD τ sig) → Buf (Elt Ideal) ℓ) (c : Dev nD) : FVec Ideal S128 .f32 := m ((c : Thread nD τ).loc main_arg10)

/-- The perceptron of equal rows under equal weights is equal. -/
theorem mlpRow_congr {x x' : Fin 192 → EReal} {W1 W1' : Fin 192 → Fin 256 → EReal} {b1 b1' : Fin 256 → EReal}
    {W2 W2' : Fin 256 → Fin 128 → EReal} {b2 b2' : Fin 128 → EReal}
    (hx : x = x') (h1 : W1 = W1') (h2 : b1 = b1') (h3 : W2 = W2') (h4 : b2 = b2') (q : Fin 128) :
    mlpRow x W1 b1 W2 b2 q = mlpRow x' W1' b1' W2' b2' q := by
  subst hx h1 h2 h3 h4; rfl

/-- ON A KEPT EDGE the kernel's outgoing-flow row is the reference's. -/
theorem outRow_eq (hcol : ∀ e : Fin 800000, 0 ≤ (ids m c (ix2 (1 : Fin 2) e)).toInt ∧ (ids m c (ix2 (1 : Fin 2) e)).toInt < 50000)
    (e : Fin 800000) (q : Fin 128)
    (h0 : 0 ≤ (ids m c (ix2 (0 : Fin 2) e)).toInt) (h1 : (ids m c (ix2 (0 : Fin 2) e)).toInt < 50000) :
    outArr m c (ix2 e q)
      = Cert.ReferenceIdeal.Read.val_main_v25 (F := Ideal) (xs m c) (ids m c) (attrs m c) (w1o m c) (b1o m c) (w2o m c) (b2o m c) (ix2 e q) := by
  rw [ref_out_apply]
  show mlpRow (fun j => V m c main_v15 (ix2 e (feat j))) (fun j k => V m c main_v16 (ix2 j k))
      (fun k => V m c main_v20 (ix2 (0 : Fin 1) k)) (fun k q' => V m c main_v17 (ix2 k q'))
      (fun q' => V m c main_v21 (ix2 (0 : Fin 1) q')) q * diffMask .olt (V m c main_v15 (ix2 e diffCol)) = _
  refine congrArg₂ (· * ·)
    (mlpRow_congr (funext fun j => (V_tile_feat m c e j).trans (congrFun (kFeat_eq_ref _ _ _) _))
      (funext fun j => funext fun k => V_w1_out m c j k) (funext fun k => V_b1_out m c k)
      (funext fun k => funext fun q' => V_w2_out m c k q') (funext fun q' => V_b2_out m c q') q) ?_
  exact (congrArg (diffMask .olt) (V_tile_diff m c e)).trans (diffMask_lt_eq _ _ h0 h1 (hcol e).1 (hcol e).2)

/-- And the incoming-flow row. -/
theorem inRow_eq (hcol : ∀ e : Fin 800000, 0 ≤ (ids m c (ix2 (1 : Fin 2) e)).toInt ∧ (ids m c (ix2 (1 : Fin 2) e)).toInt < 50000)
    (e : Fin 800000) (q : Fin 128)
    (h0 : 0 ≤ (ids m c (ix2 (0 : Fin 2) e)).toInt) (h1 : (ids m c (ix2 (0 : Fin 2) e)).toInt < 50000) :
    inArr m c (ix2 e q)
      = Cert.ReferenceIdeal.Read.val_main_v42 (F := Ideal) (xs m c) (ids m c) (attrs m c) (w1i m c) (b1i m c) (w2i m c) (b2i m c) (ix2 e q) := by
  rw [ref_in_apply]
  show mlpRow (fun j => V m c main_v15 (ix2 e (feat j))) (fun j k => V m c main_v18 (ix2 j k))
      (fun k => V m c main_v22 (ix2 (0 : Fin 1) k)) (fun k q' => V m c main_v19 (ix2 k q'))
      (fun q' => V m c main_v23 (ix2 (0 : Fin 1) q')) q * diffMask .ogt (V m c main_v15 (ix2 e diffCol)) = _
  refine congrArg₂ (· * ·)
    (mlpRow_congr (funext fun j => (V_tile_feat m c e j).trans (congrFun (kFeat_eq_ref _ _ _) _))
      (funext fun j => funext fun k => V_w1_in m c j k) (funext fun k => V_b1_in m c k)
      (funext fun k => funext fun q' => V_w2_in m c k q') (funext fun q' => V_b2_in m c q') q) ?_
  exact (congrArg (diffMask .ogt) (V_tile_diff m c e)).trans (diffMask_gt_eq _ _ h0 h1 (hcol e).1 (hcol e).2)

/-- The kernel's column of scatter indices is the reference's: both are the row ids. -/
theorem rowCol_eq : broadcastInDim S800000x1 ![0] bcast_S800000_S800000x1_0 (V m c main_v1)
    = Cert.ReferenceIdeal.Read.val_main_v27 (F := Ideal) (ids m c) := by
  rw [V_rows_eq m c]
  rfl

/-- THE RESULT of the kernel program is the reference's term of the same arguments. -/
theorem result_eq (hcol : ∀ e : Fin 800000, 0 ≤ (ids m c (ix2 (1 : Fin 2) e)).toInt ∧ (ids m c (ix2 (1 : Fin 2) e)).toInt < 50000) :
    Pipeline.afterTail₀ cfgs (dats m) 0 (V0 m) [hostOps1] c main_v31
      = Cert.ReferenceIdeal.Read.val_main_v46 (F := Ideal) (xs m c) (ids m c) (attrs m c) (w1o m c) (b1o m c) (w2o m c) (b2o m c)
          (w1i m c) (b1i m c) (w2i m c) (b2i m c) := by
  rw [tail_eq m c, finalOut m c, finalIn m c, rowCol_eq m c]
  have hOut : Host.scatterAdd scatter_S50000x128_S800000x1_S800000x128_1_0_0_1
        (broadcastInDim S50000x128 ![] bcast_S_S50000x128 (constant (F := Ideal) S_ .f32 0x00000000#32))
        (Cert.ReferenceIdeal.Read.val_main_v27 (F := Ideal) (ids m c)) (outArr m c)
      = Cert.ReferenceIdeal.Read.val_main_v28 (F := Ideal) (xs m c) (ids m c) (attrs m c) (w1o m c) (b1o m c) (w2o m c) (b2o m c) :=
    scatterAdd_congr_rows scatter_S50000x128_S800000x1_S800000x128_1_0_0_1_wf _ _ _ _ fun e q h0 h1 => by
      rw [ref_idx_out] at h0 h1
      exact outRow_eq m c hcol e q h0 h1
  have hIn : Host.scatterAdd scatter_S50000x128_S800000x1_S800000x128_1_0_0_1
        (broadcastInDim S50000x128 ![] bcast_S_S50000x128 (constant (F := Ideal) S_ .f32 0x00000000#32))
        (Cert.ReferenceIdeal.Read.val_main_v27 (F := Ideal) (ids m c)) (inArr m c)
      = Cert.ReferenceIdeal.Read.val_main_v45 (F := Ideal) (xs m c) (ids m c) (attrs m c) (w1i m c) (b1i m c) (w2i m c) (b2i m c) :=
    scatterAdd_congr_rows scatter_S50000x128_S800000x1_S800000x128_1_0_0_1_wf _ _ _ _ fun e q h0 h1 => by
      rw [ref_idx_out] at h0 h1
      exact inRow_eq m c hcol e q h0 h1
  rw [hOut, hIn]
  rfl

end Cert.EdgeFlow

end
-- ==== Proof.PreCol.lean ====
/-
  Every source-node id is a node number.

  The precondition is a conjunction of eleven facts, folded left to right; its last member says of the second row of
  the [2, 800000] id array — the source-node ids, one per edge — that every entry is at least 0 and below 50000, read
  signed: the row is sliced out and flattened, compared entry by entry against the two constants, the two comparisons
  are conjoined entry by entry, and the conjunction is taken over all edges. When the whole conjunction is 1, its
  last member is 1; an "all" that is 1 is 1 at every edge; and a signed comparison that is 1 says what it compares.
-/
import proofs.«174627_j2267742732915_1_alg».proof.Pre_finite_inputs
import proofs.«174627_j2267742732915_1_alg».proof.Proof.Spec
import Idealize.ShloMosaic.Lib.ReduceAll
import Idealize.ShloMosaic.Lib.Pipeline.Value
import Idealize.ShloMosaic.Lib.ValueIdx
import Idealize.ShloMosaic.Lib.Affine

noncomputable section

namespace Cert.EdgeFlow.PreCol

open Idealize.ShloMosaic Idealize.ShloMosaic.ValueIdx
open Cert.Pre_finite_inputs

/-- Entry e of the flattened second row of the [2, 800000] id array is entry (1, e) of the array: the flat position
    of (0, e) in a [1, 800000] array is e, and the slice starts at row 1, column 0. -/
theorem col_apply [Facts] (a1 : IVec S2x800000 32) (e : Fin 800000) :
    shapeCast S800000 (extractStridedSlice S1x800000 ![1, 0] a1 Facts.slices_S2x800000_S1x800000_1_0)
      Facts.shapeCasts_S1x800000_S800000 (ix1 e) = a1 (ix2 (1 : Fin 2) e) := by
  refine (shapeCast_apply _ _ (ix1 e) (ix2 (0 : Fin 1) e) ?_).trans ?_
  · rw [Shape.rowMajor_val_two, Shape.rowMajor_val_one]
    show (0 : Nat) * 800000 + e.val = e.val
    omega
  · refine extractStridedSlice_apply _ _ _ _ _ fun a => ?_
    match a with
    | ⟨0, _⟩ => rfl
    | ⟨1, _⟩ => show e.val = 0 + e.val; omega

/-- A scalar broadcast along the edges reads the scalar at every edge. -/
theorem bcast_apply [Facts] (c : IVec S_ 32) (e : Fin 800000) :
    broadcastInDim S800000 ![] Facts.bcast_S_S800000 c (ix1 e) = c ix0 :=
  broadcastInDim_apply _ _ _ _ _ fun a => a.elim0

/-- The last conjunct of the precondition, read at edge e: when the conjunction is 1, so is its last member, an
    "all edges" reduction of a pointwise conjunction of two comparisons; so both comparisons are 1 at e. -/
theorem part3_conj [Facts] {F : FTy → Type} [FloatOps F] (a1 : IVec S2x800000 32) (v48 : IVec S_ 1)
    (v50 : IVec S800000 32) (c18 : IVec S_ 32)
    (h : fn_part3 (F := F) a1 v48 v50 c18 ix0 = 1#1) (e : Fin 800000) :
    IntOp.cmpi .sge (v50 (ix1 e)) (c18 ix0) = 1#1 ∧ IntOp.cmpi .slt (a1 (ix2 (1 : Fin 2) e)) 50000#32 = 1#1 := by
  -- the scalar shape has one index, so the reduction's one result is the "all"
  haveI : Subsingleton S_.Idx := ⟨fun a b => funext fun d => d.elim0⟩
  unfold fn_part3 at h
  dsimp only at h
  have h1 := (IntOp.andi_eq_one.mp h).2
  have h2 := Host.reduce_andi_all _ _ _ _ _ h1 (ix1 e)
  obtain ⟨h3, h4⟩ := IntOp.andi_eq_one.mp h2
  constructor
  · have h3' : IntOp.cmpi .sge (v50 (ix1 e)) (broadcastInDim S800000 ![] Facts.bcast_S_S800000 c18 (ix1 e)) = 1#1 := h3
    rwa [bcast_apply] at h3'
  · have h4' : IntOp.cmpi .slt
        (shapeCast S800000 (extractStridedSlice S1x800000 ![1, 0] a1 Facts.slices_S2x800000_S1x800000_1_0)
          Facts.shapeCasts_S1x800000_S800000 (ix1 e))
        (broadcastInDim S800000 ![] Facts.bcast_S_S800000 (constantI S_ 32 50000#32) (ix1 e)) = 1#1 := h4
    rw [bcast_apply, col_apply] at h4'
    exact h4'

end Cert.EdgeFlow.PreCol

namespace Cert.EdgeFlow

open Idealize.ShloMosaic Idealize.ShloMosaic.ValueIdx
open Cert.Pre_finite_inputs Cert.EdgeFlow.PreCol

/-- Every source-node id is a node number: the precondition's last conjunct says 0 ≤ id and id < 50000, signed,
    at every edge. -/
theorem col_in_range {F : FTy → Type} [FloatOps F] [Cert.Pre_finite_inputs.Facts]
    (a0 : FVec F Cert.Pre_finite_inputs.S50000x128 .f32) (a1 : IVec Cert.Pre_finite_inputs.S2x800000 32)
    (a2 : FVec F Cert.Pre_finite_inputs.S800000x64 .f32) (a3 : FVec F Cert.Pre_finite_inputs.S192x256 .f32)
    (a4 : FVec F Cert.Pre_finite_inputs.S256 .f32) (a5 : FVec F Cert.Pre_finite_inputs.S256x128 .f32)
    (a6 : FVec F Cert.Pre_finite_inputs.S128 .f32) (a7 : FVec F Cert.Pre_finite_inputs.S192x256 .f32)
    (a8 : FVec F Cert.Pre_finite_inputs.S256 .f32) (a9 : FVec F Cert.Pre_finite_inputs.S256x128 .f32)
    (a10 : FVec F Cert.Pre_finite_inputs.S128 .f32)
    (h : Cert.Pre_finite_inputs.fn (F := F) a0 a1 a2 a3 a4 a5 a6 a7 a8 a9 a10 = fun _ => 1#1)
    (e : Fin 800000) :
    0 ≤ (a1 (ix2 (1 : Fin 2) e)).toInt ∧ (a1 (ix2 (1 : Fin 2) e)).toInt < 50000 := by
  have h0 : fn_part3 (F := F) a1 _
      (shapeCast S800000 (extractStridedSlice S1x800000 ![1, 0] a1 Facts.slices_S2x800000_S1x800000_1_0)
        Facts.shapeCasts_S1x800000_S800000)
      (constantI S_ 32 0#32) ix0 = 1#1 := congrFun h ix0
  obtain ⟨hge, hlt⟩ := part3_conj a1 _ _ _ h0 e
  rw [col_apply] at hge
  have h1 := IntOp.cmpi_sge.mp hge
  have h2 := IntOp.cmpi_slt.mp hlt
  have z0 : (constantI S_ 32 0#32 ix0).toInt = 0 := by decide
  have z1 : (50000#32 : BitVec 32).toInt = 50000 := by decide
  rw [z0] at h1
  rw [z1] at h2
  exact ⟨h1, h2⟩

end Cert.EdgeFlow

end
-- ==== Proof.lean ====
/- The proof of `Cert.Claim`: two programs computing a graph network's edge messages agree over the extended reals.

   The kernel program gathers, for each of 800000 edges, its source node's features beside the edge's attributes,
   appends the word difference of the edge's two node ids, runs a two-layer perceptron per flow on tiles of 3200
   edges inside one pallas_call, masking each edge by the sign of that difference, and sums the masked rows per
   row id. The reference does the same with whole-array operations and takes the masks from comparing the ids.
   The three frames come from the generated runs. The value claim: each result array of the call is one function
   of the arrays it reads (the tiles cover the edges), the host lines around the call are read at an index, and on
   every edge the scatter keeps the two masks agree, the source-node ids being node numbers by the precondition. -/
import proofs.«174627_j2267742732915_1_alg».proof.Defs
import proofs.«174627_j2267742732915_1_alg».proof.Proof.Gen.Kernel
import proofs.«174627_j2267742732915_1_alg».proof.Proof.Gen.Kernel.Skeleton
import proofs.«174627_j2267742732915_1_alg».proof.Proof.Gen.Kernel.Launch
import proofs.«174627_j2267742732915_1_alg».proof.Proof.Gen.Kernel.Points
import proofs.«174627_j2267742732915_1_alg».proof.Proof.Gen.Kernel.Frame
import proofs.«174627_j2267742732915_1_alg».proof.Proof.Gen.KernelIdeal
import proofs.«174627_j2267742732915_1_alg».proof.Proof.Gen.KernelIdeal.Skeleton
import proofs.«174627_j2267742732915_1_alg».proof.Proof.Gen.KernelIdeal.Launch
import proofs.«174627_j2267742732915_1_alg».proof.Proof.Gen.KernelIdeal.Points
import proofs.«174627_j2267742732915_1_alg».proof.Proof.Gen.KernelIdeal.Frame
import proofs.«174627_j2267742732915_1_alg».proof.Proof.Gen.ReferenceIdeal
import proofs.«174627_j2267742732915_1_alg».proof.Proof.Gen.ReferenceIdeal.Run
import proofs.«174627_j2267742732915_1_alg».proof.Proof.Gen.ReferenceIdeal.Read
import proofs.«174627_j2267742732915_1_alg».proof.Proof.Gen.Pre_finite_inputs
import proofs.«174627_j2267742732915_1_alg».proof.Proof.Bridge
import proofs.«174627_j2267742732915_1_alg».proof.Proof.PreCol
import Idealize.ShloMosaic.Adequacy
import Idealize.ShloMosaic.Init

set_option maxRecDepth 16384

noncomputable section

namespace Cert.Proof

open Idealize.ShloMosaic Idealize.SL.Sem Idealize.ShloMosaic.ValueIdx

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.ReferenceIdeal.Read.val_main_v46 (F := Ideal) (Cert.EdgeFlow.xs m c) (Cert.EdgeFlow.ids m c) (Cert.EdgeFlow.attrs m c)
        (Cert.EdgeFlow.w1o m c) (Cert.EdgeFlow.b1o m c) (Cert.EdgeFlow.w2o m c) (Cert.EdgeFlow.b2o m c)
        (Cert.EdgeFlow.w1i m c) (Cert.EdgeFlow.b1i m c) (Cert.EdgeFlow.w2i m c) (Cert.EdgeFlow.b2i m c),
      (θ_run Cert.KernelIdeal.defs _ _).mono
        (fun _ h c => ⟨(h c).1.trans (Cert.EdgeFlow.result_eq m c fun e => Cert.EdgeFlow.col_in_range _ _ _ _ _ _ _ _ _ _ _ (hpre c) e), (h c).2⟩)
        (Cert.EdgeFlow.kernel_run m ρ),
      (θ_run Cert.ReferenceIdeal.defs _ _).mono
        (fun _ h c => ⟨by
          rw [(h c).1, Cert.ReferenceIdeal.Read.val_main_v46_eq, (hagree c).1, (hagree c).2.1, (hagree c).2.2.1, (hagree c).2.2.2.1,
            (hagree c).2.2.2.2.1, (hagree c).2.2.2.2.2.1, (hagree c).2.2.2.2.2.2.1, (hagree c).2.2.2.2.2.2.2.1,
            (hagree c).2.2.2.2.2.2.2.2.1, (hagree c).2.2.2.2.2.2.2.2.2.1, (hagree c).2.2.2.2.2.2.2.2.2.2], (h c).2⟩)
        (Cert.ReferenceIdeal.Value.run (F := Ideal) m' ρ')⟩⟩

end Cert.Proof

end
